-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : IVec S1600000 32) (main_arg8 : IVec S1600000 32) (main_arg9 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩
abbrev S2x128x128 : Shape := ⟨3, ![2, 128, 128]⟩
abbrev S2000x128 : Shape := ⟨2, ![2000, 128]⟩
abbrev S2000x1 : Shape := ⟨2, ![2000, 1]⟩
abbrev S1x128x128 : Shape := ⟨3, ![1, 128, 128]⟩
abbrev S128x1 : Shape := ⟨2, ![128, 1]⟩

abbrev nBuf : Space → Nat
  | .hbm => 83
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S100000x1, .f32⟩
  | .hbm, ⟨46, _⟩ => ⟨S100000x128, .f32⟩
  | .hbm, ⟨47, _⟩ => ⟨S100000x128, .bf16⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x1, .f32⟩
  | .hbm, ⟨64, _⟩ => ⟨S100000x1, .i32⟩
  | .hbm, ⟨65, _⟩ => ⟨S2x128x128, .f32⟩
  | .hbm, ⟨66, _⟩ => ⟨S1x128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S128x128, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S128, .f32⟩
  | .hbm, ⟨75, _⟩ => ⟨S100000x1, .i32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128x1, .f32⟩
  | .hbm, ⟨81, _⟩ => ⟨S128x128, .f32⟩
  | .hbm, ⟨82, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S2000x1, .i32⟩
  | .local _ .vmem, ⟨18, _⟩ => ⟨S2000x1, .i32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128x128, .f32⟩
  | .local _ .vmem, ⟨23, _⟩ => ⟨S1x128x128, .f32⟩
  | .local _ .vmem, ⟨24, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v39 : BitVec 1 := Scalar.cmpi .eq arg1 c24_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  iota_S2000x128_d1_w32 : S2000x128.Iotas .tc 32 [1]
  natLt_1_32 : 1 < 32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  slices_S2x128x128_S1x128x128_0_0_0 : S2x128x128.Slices ![0, 0, 0] S1x128x128
  slices_S2x128x128_S1x128x128_1_0_0 : S2x128x128.Slices ![1, 0, 0] S1x128x128
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .i32 = 32 ∨ (Rect.block (s := S100000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x128.size a ≤ S2x128x128.size a
  hwx1_7 : ∀ i : grid1.Coords, EltTy.bits .f32 = 32 ∨ (Rect.block (s := S2x128x128) S1x128x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x1 : Shape := ⟨2, ![128, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128x128, .f32⟩
  | .hbm, ⟨81, _⟩ => ⟨S100000x1, .i32⟩
  | .hbm, ⟨82, _⟩ => ⟨S128x128, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S128, .f32⟩
  | .hbm, ⟨87, _⟩ => ⟨S100000x1, .i32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128x1, .f32⟩
  | .hbm, ⟨93, _⟩ => ⟨S128x128, .f32⟩
  | .hbm, ⟨94, _⟩ => ⟨S128x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call2_cst : Ref sig .tc := ⟨.hbm, 76, rfl⟩
abbrev main_call2_v0 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.KI.Region0.lean ====
/-
  Region 0 of the program, the first dense layer, tile by tile: what the kernel leaves in its output
  tile as a function of the six input tiles, and that running the body on whole staging buffers holding
  those tiles leaves exactly that. The buffers' contents when the region is entered are a parameter `V`.
  Tile `t` of each input is read off the array `V` holds for it; three inputs (the two weight
  matrices and the bias) are fetched once and stay in place, so their tile is the same at every point.
-/
import proofs.«428029_j66185446031414_3_alg».proof.Proof.Gen.KernelIdeal.Launch
import proofs.«428029_j66185446031414_3_alg».proof.Proof.Gen.KernelIdeal.Skeleton
import proofs.«428029_j66185446031414_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's staging buffer holds its tile at every point, fetched there or not: an input that is not
    fetched at a point has the same tile index as at the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S5000x128 := Rect.unit (s := S5000x128) ![0, 0] S5000x128.size inb_S5000x128_S5000x128_0_0
abbrev r0_c : Rect S5000x1 := Rect.unit (s := S5000x1) ![0, 0] S5000x1.size inb_S5000x1_S5000x1_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output tile after the body: its one store, of the layer's value on the input tiles. -/
def out0_6 (x0 : Vec F S5000x128 .f32) (x1 : Vec F S5000x128 .f32) (x2 : Vec F S5000x1 .f32) (x3 : Vec F S128x128 .f32) (x4 : Vec F S128x128 .f32) (x5 : Vec F S1x128 .f32) : Vec F S5000x128 .f32 :=
  View.canon [⟨r0_a, k0_pay1 (View.ld x0 r0_a) (View.ld x1 r0_a) (View.ld x2 r0_c) (View.ld x3 r0_w) (View.ld x4 r0_w) (View.ld x5 r0_b)⟩]

/-- The one store covers the tile. -/
theorem cover0_6 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

set_option maxHeartbeats 4000000 in
/-- The body on whole staging buffers, the inputs' at `x0 … x5`, the output's at anything: it runs to the
    continuation with the inputs unchanged and the output at `out0_6`. -/
theorem sound_kernel0 (c : Dev nD) (E : Set ℕ) (i : grid0.Coords) (arg0 : Memref sig .tc .vmem S5000x128 .f32) (harg0 : arg0.IsWhole) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S128x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out0_6 x0 x1 x2 x3 x4 x5)) -∗ K ⟨⟩))
      ⊢ wp frame (wpE (defs₀ (F := F)) Variants.none c none) E (cc0__sage_linear_kernel i arg0 harg0 arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- Region 0's proof data on core `c`: the arrays as the region finds them; after the body each input's
    buffer at its tile and the output's at `out0_6` of the input tiles; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1Runs.lean ====
/-
  Region 1 of the program, the pooling layer, on whole buffers: the body's two conditions over the grid of
  2 × 25 points, where the output window is idle, and the body run in each of its three cases. A run of 25
  points accumulates into one buffer of the kernel's own: its first point stores the zero block there and
  then adds the point's partial product to it, each later point adds its own, and the last point of a run
  also stores the output tile from the accumulated sum.
-/
import proofs.«428029_j66185446031414_3_alg».proof.Proof.Gen.KernelIdeal.Launch
import proofs.«428029_j66185446031414_3_alg».proof.Proof.Gen.KernelIdeal.Skeleton
import proofs.«428029_j66185446031414_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The body's two conditions, decided over the grid -/

/-- The condition under which the body resets the accumulator, from the grid coordinates. -/
abbrev cond1_0 (i : grid1.Coords) : Prop := (Scalar.cmpi .ne (Scalar.extui (Scalar.cmpi .eq (BitVec.ofNat 32 (i 1).val) 0#32)) 0#32) = 1#1
/-- It holds at the first point of each run of 25. -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition under which the body stores the output tile. -/
abbrev cond1_1 (i : grid1.Coords) : Prop := k1_cond2 i = 1#1
/-- It holds at the last point of each run of 25. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Input window 6 is never idle. -/
theorem liveAt1_6 : ∀ t : Fin cfg1.N, cfg1.idle 6 (grid1.coords t) = false := by decide +kernel
/-- At a first point of a run the output window is idle, -/
theorem idleAt1_7_A : ∀ t : Fin cfg1.N, cond1_0 (grid1.coords t) → ¬cond1_1 (grid1.coords t) → cfg1.idle 7 (grid1.coords t) = true := by decide +kernel
/-- and its block is not written back. -/
theorem noFlush1_7_A : ∀ t : Fin cfg1.N, cond1_0 (grid1.coords t) → ¬cond1_1 (grid1.coords t) → (cfg1.win 7).flush t = false := by decide +kernel
/-- At a middle point of a run the output window is idle, -/
theorem idleAt1_7_B : ∀ t : Fin cfg1.N, ¬cond1_0 (grid1.coords t) → ¬cond1_1 (grid1.coords t) → cfg1.idle 7 (grid1.coords t) = true := by decide +kernel
/-- and its block is not written back. -/
theorem noFlush1_7_B : ∀ t : Fin cfg1.N, ¬cond1_0 (grid1.coords t) → ¬cond1_1 (grid1.coords t) → (cfg1.win 7).flush t = false := by decide +kernel
/-- At the last point of a run the output window is live. -/
theorem liveAt1_7_C : ∀ t : Fin cfg1.N, ¬cond1_0 (grid1.coords t) → cond1_1 (grid1.coords t) → cfg1.idle 7 (grid1.coords t) = false := by decide +kernel

/-! ## The buffers the body is called on -/

/-- One staging buffer of the output window, through which its contents are stated. -/
abbrev VO1_7 : View sig .tc .vmem S1x128x128 .f32 := (Memref.whole cc1_stg7_0 : Memref sig .tc .vmem S1x128x128 .f32).view
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128x128 .f32 := win1_7.stage (cfg1.slots t 7)
abbrev hs1_7 (t : Fin cfg1.N) : (ms1_7 t).IsWhole := hstage1_7 ((cfg1.slots t 7).cast nbuf1_7)
/-- The accumulator: a whole buffer of the kernel's own, carried from point to point. -/
abbrev scM1_0 : Memref sig .tc .vmem S128x128 .f32 := Memref.whole cc1_scratch0
/-- The same as a view. -/
abbrev VS1_0 : View sig .tc .vmem S128x128 .f32 := scM1_0.view

/-- The region's invariant around the accumulator: the eleven other buffers of the core that the region does not
    stage, each at some contents, the accumulator's share `X`, and the generator register at some state. -/
def chain1 (c : Dev nD) (X : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ X) ∗ (∃ r, prngReg c r))

/-- What is beside the accumulator in it. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ r, prngReg c r))

theorem chain1_split (c : Dev nD) (X : sProp 𝕄) : chain1 (F := F) c X ⊢ iprop(X ∗ rest1 (F := F) c) := by
  unfold chain1 rest1
  iintro ⟨⟨R0, R1, R2, R3, R4, R5, R6, R7, R8, R9, R10, HX⟩, Hg⟩
  isplitl [HX]; · iexact HX
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact Hg

theorem chain1_join (c : Dev nD) (X : sProp 𝕄) : iprop(X ∗ rest1 (F := F) c) ⊢ chain1 (F := F) c X := by
  unfold chain1 rest1
  iintro ⟨HX, R0, R1, R2, R3, R4, R5, R6, R7, R8, R9, R10, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HX

/-- What the launch hands the region is that invariant with the accumulator at some contents. -/
theorem PhiA1_eq (c : Dev nD) :
    (Pipeline.ΦA spec1 c : sProp 𝕄) = chain1 (F := F) c iprop(∃ d, owns (c : Thread nD τ) scM1_0 fullShare d) := by
  unfold Pipeline.ΦA chain1; rw [scopedRest1_eq]; simp only [scM1_0, owns_whole]; try rfl

/-! ## The body in its three cases -/

set_option maxHeartbeats 4000000 in
/-- The body at a first point of a run (the accumulator is reset, the output tile is not stored): on whole
    buffers, the inputs' at `x0 … x6`, the output's at `xi7` and the accumulator's at anything, it runs to the
    continuation with the inputs and the output unchanged and the accumulator with the pieces `LS0` written,
    last first: the sum stored over the zero block. -/
noncomputable def kernelRun1_A (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) :
    Σ' (L7 : List (View.Piece (Elt F) S1x128x128 .f32)), { LS0 : List (View.Piece (Elt F) S128x128 .f32) //
      ∀ (xi7 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__sage_pool_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_pool_kernel_eq_skeleton]; unfold cc1__sage_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 4000000 in
/-- The body at a middle point of a run (nothing reset, the output tile not stored): the accumulator's buffer
    at `xs0`, what the point before left; it ends with the pieces `LS0` written: the sum stored. -/
noncomputable def kernelRun1_B (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) :
    Σ' (L7 : List (View.Piece (Elt F) S1x128x128 .f32)), { LS0 : List (View.Piece (Elt F) S128x128 .f32) //
      ∀ (xi7 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__sage_pool_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_pool_kernel_eq_skeleton]; unfold cc1__sage_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 4000000 in
/-- The body at the last point of a run (nothing reset, the output tile stored from the accumulator): the
    accumulator's buffer at `xs0`, the output's at anything; they end with the pieces `LS0` and `L7` written. -/
noncomputable def kernelRun1_C (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) :
    Σ' (L7 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__sage_pool_kernel i arg2 harg2 arg3 harg3 arg4 harg4 arg5 harg5 arg6 harg6 arg7 harg7 arg8 harg8 arg9 harg9 arg10 harg10) K } := by
  refine ⟨?_, ?_, fun E K => ?run⟩
  case run =>
    simp only [cc1__sage_pool_kernel_eq_skeleton]; unfold cc1__sage_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Frame

end
-- ==== Proof.KI.Region1.lean ====
/-
  Region 1 of the program, the pooling layer, point by point: what the output window's buffer and the
  accumulator hold after the body at each of the 50 points, as functions of the input tiles read off the
  arrays the region finds (a parameter `V`), the proof data of the pipeline over them, and that the body
  meets its obligation at every point. The invariant carried from point to point is the accumulator at what
  the point before left, beside the core's other buffers at anything; before the first point and after the
  last it is the plain one of the launch.
-/
import proofs.«428029_j66185446031414_3_alg».proof.Proof.KI.Region1Runs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its tile at every point, fetched there or not: an input that is not
    fetched at a point has the same tile index as at the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output window's buffer and in the accumulator -/

/-- What a first point of a run leaves in the output window's buffer: its pieces read back (none: the window is idle there, and nothing consults this). -/
def out1_A_7 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) : Vec F S1x128x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 hc1 x0 x1 x2 x3 x4 x5 x6).1)

/-- The pieces a first point of a run stores into the accumulator cover it. -/
theorem scover1_A_0 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (y : S128x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).2.1 S128x128.size (by sl_kernel_rfl) y

/-- What a first point of a run leaves in the accumulator: its pieces read back. -/
def sout1_A_0 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) : Vec F S128x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5 x6).2.1)

/-- What a middle point of a run leaves in the output window's buffer: its pieces read back (none: the window is idle there, and nothing consults this). -/
def out1_B_7 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) : Vec F S1x128x128 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 hc1 x0 x1 x2 x3 x4 x5 x6 xs0).1)

/-- The pieces a middle point of a run stores into the accumulator cover it. -/
theorem scover1_B_0 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) (y : S128x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xs0).2.1 S128x128.size (by sl_kernel_rfl) y

/-- What a middle point of a run leaves in the accumulator: its pieces read back. -/
def sout1_B_0 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 x6 xs0).2.1)

/-- The pieces the last point of a run stores into the output window's buffer cover it. -/
theorem cover1_C_7 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) (y : S1x128x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S1x128x128.size (by sl_kernel_rfl) y

/-- What the last point of a run leaves in the output window's buffer: its pieces read back. -/
def out1_C_7 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) : Vec F S1x128x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 x6 xs0).1)

/-- The pieces the last point of a run stores into the accumulator cover it. -/
theorem scover1_C_0 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) (y : S128x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S128x128.size (by sl_kernel_rfl) y

/-- What the last point of a run leaves in the accumulator: its pieces read back. -/
def sout1_C_0 (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) : Vec F S128x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 x6 xs0).2.1)

/-! ## What the two hold after each point -/

/-- The accumulation: the output window's buffer and the accumulator after the body at point `n` — the case
    the closed forms select there, on the point's buffers and input tiles, the accumulator entering it at what
    point `n - 1` left. No point is both the first and the last of a run. -/
def outsAt1 (c : Dev nD) : (n : ℕ) → n < cfg1.N → Vec F S1x128x128 .f32 × Vec F S128x128 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 25 = 0 then
      if h1 : (n + 1) % 25 = 24 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 25 = 24 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a first point of a run. -/
theorem outsAt1_A (c : Dev nD) (t : Fin cfg1.N) (h0 : t.val % 25 = 0) (h1 : ¬t.val % 25 = 24) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

/-- `outsAt1` at a middle point of a run, over what the point before left. -/
theorem outsAt1_B (c : Dev nD) (t : Fin cfg1.N) (h0 : ¬t.val % 25 = 0) (h1 : ¬t.val % 25 = 24) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a run, over what the point before left. -/
theorem outsAt1_C (c : Dev nD) (t : Fin cfg1.N) (h0 : ¬t.val % 25 = 0) (h1 : t.val % 25 = 24) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before point `n`: before the first point the launch's; afterwards the accumulator
    owned at what the point before left in it, beside the core's other buffers at anything and the generator
    register at some state. -/
def PhiS1 (c : Dev nD) : (n : ℕ) → n ≤ cfg1.N → sProp 𝕄
  | 0, _ => Pipeline.ΦA spec1 c
  | n + 1, hn => chain1 (F := F) c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = chain1 (F := F) c (owns (c : Thread nD τ) scM1_0 fullShare ((outsAt1 V c n hn).2)) := rfl

/-- Before a point that is not the first: the accumulator at what the point before left. -/
theorem PhiS1_pos (c : Dev nD) (n : ℕ) (h : n ≤ cfg1.N) (hz : n ≠ 0) :
    PhiS1 V c n h = chain1 (F := F) c (owns (c : Thread nD τ) scM1_0 fullShare ((outsAt1 V c (n - 1) (by omega)).2)) := by
  cases n with
  | zero => exact absurd rfl hz
  | succ n => rfl

/-! ## The pipeline's proof data -/

/-- Region 1's proof data on core `c`: the arrays as the region finds them; after the body each input's
    buffer at its tile and the output window's at `outsAt1`'s first component; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' buffers hold their tiles; the closed forms say which case the point is
    in; the invariant hands the body the accumulator at what the point before left (at anything at the very
    first point) and takes it back at this point's contents, the other buffers beside it untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 25 = 0
  · by_cases h1 : t.val % 25 = 24
    · exfalso; omega
    · rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦs := chain1_split (F := F) c _ $$ HΦ
        icases HΦs with ⟨HS0, Hr⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hr]
        · iapply (chain1_join (F := F) c _)
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦs := chain1_split (F := F) c _ $$ HΦ
        icases HΦs with ⟨HS0, Hr⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hr]
        · iapply (chain1_join (F := F) c _)
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 25 = 24
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_0; (try dsimp only)
      have hz : t.val ≠ 0 := fun hz => h0 (by rw [hz])
      rw [PhiS1_castSucc V c t, PhiS1_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦs := chain1_split (F := F) c _ $$ HΦ
      icases HΦs with ⟨HS0, Hr⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hr]
      · iapply (chain1_join (F := F) c _)
        isplitl [HS0]
        · unfold owns; iexists _; isplitr
          swap; · iexact HS0
          ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0; (try dsimp only)
      have hz : t.val ≠ 0 := fun hz => h0 (by rw [hz])
      rw [PhiS1_castSucc V c t, PhiS1_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦs := chain1_split (F := F) c _ $$ HΦ
      icases HΦs with ⟨HS0, Hr⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hr]
      · iapply (chain1_join (F := F) c _)
        isplitl [HS0]
        · unfold owns; iexists _; isplitr
          swap; · iexact HS0
          ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro HΦ
  ihave HΦs := chain1_split (F := F) c _ $$ HΦ
  icases HΦs with ⟨HS0, Hr⟩
  iapply (chain1_join (F := F) c _)
  isplitl [HS0]
  · iexists _; iexact HS0
  iexact Hr

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Frame

end
-- ==== Proof.KI.Run.lean ====
/-
  The whole program as seven segments — three stretches of host operations, region 0, a stretch, region 1,
  a last stretch — run from the launch to the return: every weakly fair execution terminates, and at the end
  every unscoped buffer of the TensorCore holds what the fold `W7` of the segments computes from the launch
  memory. A stretch of host operations replaces the contents by `StableHlo.after` of its operations; a region
  replaces each of its windows' arrays by what its write-backs leave and keeps every other buffer.
-/
import proofs.«428029_j66185446031414_3_alg».proof.Proof.KI.Region0
import proofs.«428029_j66185446031414_3_alg».proof.Proof.KI.Region1
import proofs.«428029_j66185446031414_3_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the first three stretches of host operations (region 0's entry is `W3`). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At region 0's exit: its arrays at what its write-backs leave, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the stretch between the regions (region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the last stretch: the contents at the return. -/
abbrev W7 : Dev nD → Valuation τ sig (Elt F) := fun c => StableHlo.after hostOps2 (W6 m c)

/-! ## The proof data of both regions, and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 as a segment: entered with every unscoped buffer at `W3`, left with them at `W4`; its
    arrays are split out of the unscoped buffers at entry and put back at their final contents at exit; the
    generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`; its
    arrays are split out of the unscoped buffers at entry and put back at their final contents at exit; the
    generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V5 m) c)
    unfold Pipeline.ΦA
    iintro ⟨Hp, -, Hr⟩
    isplitl [Hr]; · iexact Hr
    iexact Hp
  hout c := by
    rw [Pipeline.ownSems0_none]
    refine (hout1 (V5 m) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The segments and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]

set_option backward.isDefEq.respectTransparency.types false in
/-- From any memory with zero counters every weakly fair execution of the program terminates, nothing faulting, and
    every final memory holds each unscoped buffer at `W7`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => sep_mono .rfl (show (R c : sProp 𝕄) ⊢ iprop(∃ W, owes (c : Thread nD τ) (0 : CellTallies nD τ sig Unit) W) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Frame

end
-- ==== Proof.KI.Args.lean ====
/-
  No segment changes an argument array: a stretch of host operations writes only its own result buffers, and a
  region either stages an argument as an input window, whose array it leaves as it found it, or does not touch
  it. So at every segment boundary, and at the return, each argument holds its launch contents.
-/
import proofs.«428029_j66185446031414_3_alg».proof.Proof.KI.Run

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ)

theorem W0_main_arg0 (c : Dev nD) : W0 m c (Proc.devRef .tc main_arg0) = m ((c : Thread nD τ).loc main_arg0) := rfl
theorem W1_main_arg0 (c : Dev nD) : W1 m c (Proc.devRef .tc main_arg0) = m ((c : Thread nD τ).loc main_arg0) :=
  ((StableHlo.after_of_writes_sub hostOps0 _ hostOps0_writes (by decide : main_arg0 ∉ hostOps0_W)) : W1 m c (Proc.devRef .tc main_arg0) = W0 m c (Proc.devRef .tc main_arg0)).trans (W0_main_arg0 m c)
theorem W2_main_arg0 (c : Dev nD) : W2 m c (Proc.devRef .tc main_arg0) = m ((c : Thread nD τ).loc main_arg0) :=
  ((StableHlo.after_of_writes_sub hostOps0_1 _ hostOps0_1_writes (by decide : main_arg0 ∉ hostOps0_1_W)) : W2 m c (Proc.devRef .tc main_arg0) = W1 m c (Proc.devRef .tc main_arg0)).trans (W1_main_arg0 m c)
theorem W3_main_arg0 (c : Dev nD) : W3 m c (Proc.devRef .tc main_arg0) = m ((c : Thread nD τ).loc main_arg0) :=
  ((StableHlo.after_of_writes_sub hostOps0_2 _ hostOps0_2_writes (by decide : main_arg0 ∉ hostOps0_2_W)) : W3 m c (Proc.devRef .tc main_arg0) = W2 m c (Proc.devRef .tc main_arg0)).trans (W2_main_arg0 m c)
theorem W4_main_arg0 (c : Dev nD) : W4 m c (Proc.devRef .tc main_arg0) = m ((c : Thread nD τ).loc main_arg0) :=
  (((W4_arr m c 0).trans (((dat0 (V3 m) c).arrAt_in 0 rfl _).trans (A_eq0 (V3 m) c 0))) : W4 m c (Proc.devRef .tc main_arg0) = W3 m c (Proc.devRef .tc main_arg0)).trans (W3_main_arg0 m c)
theorem W5_main_arg0 (c : Dev nD) : W5 m c (Proc.devRef .tc main_arg0) = m ((c : Thread nD τ).loc main_arg0) :=
  ((StableHlo.after_of_writes_sub hostOps1 _ hostOps1_writes (by decide : main_arg0 ∉ hostOps1_W)) : W5 m c (Proc.devRef .tc main_arg0) = W4 m c (Proc.devRef .tc main_arg0)).trans (W4_main_arg0 m c)
theorem W6_main_arg0 (c : Dev nD) : W6 m c (Proc.devRef .tc main_arg0) = m ((c : Thread nD τ).loc main_arg0) :=
  ((W6_of_ne m c main_arg0 (by decide)) : W6 m c (Proc.devRef .tc main_arg0) = W5 m c (Proc.devRef .tc main_arg0)).trans (W5_main_arg0 m c)
theorem W7_main_arg0 (c : Dev nD) : W7 m c (Proc.devRef .tc main_arg0) = m ((c : Thread nD τ).loc main_arg0) :=
  ((StableHlo.after_of_writes_sub hostOps2 _ hostOps2_writes (by decide : main_arg0 ∉ hostOps2_W)) : W7 m c (Proc.devRef .tc main_arg0) = W6 m c (Proc.devRef .tc main_arg0)).trans (W6_main_arg0 m c)

theorem W0_main_arg1 (c : Dev nD) : W0 m c (Proc.devRef .tc main_arg1) = m ((c : Thread nD τ).loc main_arg1) := rfl
theorem W1_main_arg1 (c : Dev nD) : W1 m c (Proc.devRef .tc main_arg1) = m ((c : Thread nD τ).loc main_arg1) :=
  ((StableHlo.after_of_writes_sub hostOps0 _ hostOps0_writes (by decide : main_arg1 ∉ hostOps0_W)) : W1 m c (Proc.devRef .tc main_arg1) = W0 m c (Proc.devRef .tc main_arg1)).trans (W0_main_arg1 m c)
theorem W2_main_arg1 (c : Dev nD) : W2 m c (Proc.devRef .tc main_arg1) = m ((c : Thread nD τ).loc main_arg1) :=
  ((StableHlo.after_of_writes_sub hostOps0_1 _ hostOps0_1_writes (by decide : main_arg1 ∉ hostOps0_1_W)) : W2 m c (Proc.devRef .tc main_arg1) = W1 m c (Proc.devRef .tc main_arg1)).trans (W1_main_arg1 m c)
theorem W3_main_arg1 (c : Dev nD) : W3 m c (Proc.devRef .tc main_arg1) = m ((c : Thread nD τ).loc main_arg1) :=
  ((StableHlo.after_of_writes_sub hostOps0_2 _ hostOps0_2_writes (by decide : main_arg1 ∉ hostOps0_2_W)) : W3 m c (Proc.devRef .tc main_arg1) = W2 m c (Proc.devRef .tc main_arg1)).trans (W2_main_arg1 m c)
theorem W4_main_arg1 (c : Dev nD) : W4 m c (Proc.devRef .tc main_arg1) = m ((c : Thread nD τ).loc main_arg1) :=
  (((W4_arr m c 3).trans (((dat0 (V3 m) c).arrAt_in 3 rfl _).trans (A_eq0 (V3 m) c 3))) : W4 m c (Proc.devRef .tc main_arg1) = W3 m c (Proc.devRef .tc main_arg1)).trans (W3_main_arg1 m c)
theorem W5_main_arg1 (c : Dev nD) : W5 m c (Proc.devRef .tc main_arg1) = m ((c : Thread nD τ).loc main_arg1) :=
  ((StableHlo.after_of_writes_sub hostOps1 _ hostOps1_writes (by decide : main_arg1 ∉ hostOps1_W)) : W5 m c (Proc.devRef .tc main_arg1) = W4 m c (Proc.devRef .tc main_arg1)).trans (W4_main_arg1 m c)
theorem W6_main_arg1 (c : Dev nD) : W6 m c (Proc.devRef .tc main_arg1) = m ((c : Thread nD τ).loc main_arg1) :=
  ((W6_of_ne m c main_arg1 (by decide)) : W6 m c (Proc.devRef .tc main_arg1) = W5 m c (Proc.devRef .tc main_arg1)).trans (W5_main_arg1 m c)
theorem W7_main_arg1 (c : Dev nD) : W7 m c (Proc.devRef .tc main_arg1) = m ((c : Thread nD τ).loc main_arg1) :=
  ((StableHlo.after_of_writes_sub hostOps2 _ hostOps2_writes (by decide : main_arg1 ∉ hostOps2_W)) : W7 m c (Proc.devRef .tc main_arg1) = W6 m c (Proc.devRef .tc main_arg1)).trans (W6_main_arg1 m c)

theorem W0_main_arg2 (c : Dev nD) : W0 m c (Proc.devRef .tc main_arg2) = m ((c : Thread nD τ).loc main_arg2) := rfl
theorem W1_main_arg2 (c : Dev nD) : W1 m c (Proc.devRef .tc main_arg2) = m ((c : Thread nD τ).loc main_arg2) :=
  ((StableHlo.after_of_writes_sub hostOps0 _ hostOps0_writes (by decide : main_arg2 ∉ hostOps0_W)) : W1 m c (Proc.devRef .tc main_arg2) = W0 m c (Proc.devRef .tc main_arg2)).trans (W0_main_arg2 m c)
theorem W2_main_arg2 (c : Dev nD) : W2 m c (Proc.devRef .tc main_arg2) = m ((c : Thread nD τ).loc main_arg2) :=
  ((StableHlo.after_of_writes_sub hostOps0_1 _ hostOps0_1_writes (by decide : main_arg2 ∉ hostOps0_1_W)) : W2 m c (Proc.devRef .tc main_arg2) = W1 m c (Proc.devRef .tc main_arg2)).trans (W1_main_arg2 m c)
theorem W3_main_arg2 (c : Dev nD) : W3 m c (Proc.devRef .tc main_arg2) = m ((c : Thread nD τ).loc main_arg2) :=
  ((StableHlo.after_of_writes_sub hostOps0_2 _ hostOps0_2_writes (by decide : main_arg2 ∉ hostOps0_2_W)) : W3 m c (Proc.devRef .tc main_arg2) = W2 m c (Proc.devRef .tc main_arg2)).trans (W2_main_arg2 m c)
theorem W4_main_arg2 (c : Dev nD) : W4 m c (Proc.devRef .tc main_arg2) = m ((c : Thread nD τ).loc main_arg2) :=
  (((W4_arr m c 4).trans (((dat0 (V3 m) c).arrAt_in 4 rfl _).trans (A_eq0 (V3 m) c 4))) : W4 m c (Proc.devRef .tc main_arg2) = W3 m c (Proc.devRef .tc main_arg2)).trans (W3_main_arg2 m c)
theorem W5_main_arg2 (c : Dev nD) : W5 m c (Proc.devRef .tc main_arg2) = m ((c : Thread nD τ).loc main_arg2) :=
  ((StableHlo.after_of_writes_sub hostOps1 _ hostOps1_writes (by decide : main_arg2 ∉ hostOps1_W)) : W5 m c (Proc.devRef .tc main_arg2) = W4 m c (Proc.devRef .tc main_arg2)).trans (W4_main_arg2 m c)
theorem W6_main_arg2 (c : Dev nD) : W6 m c (Proc.devRef .tc main_arg2) = m ((c : Thread nD τ).loc main_arg2) :=
  ((W6_of_ne m c main_arg2 (by decide)) : W6 m c (Proc.devRef .tc main_arg2) = W5 m c (Proc.devRef .tc main_arg2)).trans (W5_main_arg2 m c)
theorem W7_main_arg2 (c : Dev nD) : W7 m c (Proc.devRef .tc main_arg2) = m ((c : Thread nD τ).loc main_arg2) :=
  ((StableHlo.after_of_writes_sub hostOps2 _ hostOps2_writes (by decide : main_arg2 ∉ hostOps2_W)) : W7 m c (Proc.devRef .tc main_arg2) = W6 m c (Proc.devRef .tc main_arg2)).trans (W6_main_arg2 m c)

theorem W0_main_arg3 (c : Dev nD) : W0 m c (Proc.devRef .tc main_arg3) = m ((c : Thread nD τ).loc main_arg3) := rfl
theorem W1_main_arg3 (c : Dev nD) : W1 m c (Proc.devRef .tc main_arg3) = m ((c : Thread nD τ).loc main_arg3) :=
  ((StableHlo.after_of_writes_sub hostOps0 _ hostOps0_writes (by decide : main_arg3 ∉ hostOps0_W)) : W1 m c (Proc.devRef .tc main_arg3) = W0 m c (Proc.devRef .tc main_arg3)).trans (W0_main_arg3 m c)
theorem W2_main_arg3 (c : Dev nD) : W2 m c (Proc.devRef .tc main_arg3) = m ((c : Thread nD τ).loc main_arg3) :=
  ((StableHlo.after_of_writes_sub hostOps0_1 _ hostOps0_1_writes (by decide : main_arg3 ∉ hostOps0_1_W)) : W2 m c (Proc.devRef .tc main_arg3) = W1 m c (Proc.devRef .tc main_arg3)).trans (W1_main_arg3 m c)
theorem W3_main_arg3 (c : Dev nD) : W3 m c (Proc.devRef .tc main_arg3) = m ((c : Thread nD τ).loc main_arg3) :=
  ((StableHlo.after_of_writes_sub hostOps0_2 _ hostOps0_2_writes (by decide : main_arg3 ∉ hostOps0_2_W)) : W3 m c (Proc.devRef .tc main_arg3) = W2 m c (Proc.devRef .tc main_arg3)).trans (W2_main_arg3 m c)
theorem W4_main_arg3 (c : Dev nD) : W4 m c (Proc.devRef .tc main_arg3) = m ((c : Thread nD τ).loc main_arg3) :=
  ((W4_of_ne m c main_arg3 (by decide)) : W4 m c (Proc.devRef .tc main_arg3) = W3 m c (Proc.devRef .tc main_arg3)).trans (W3_main_arg3 m c)
theorem W5_main_arg3 (c : Dev nD) : W5 m c (Proc.devRef .tc main_arg3) = m ((c : Thread nD τ).loc main_arg3) :=
  ((StableHlo.after_of_writes_sub hostOps1 _ hostOps1_writes (by decide : main_arg3 ∉ hostOps1_W)) : W5 m c (Proc.devRef .tc main_arg3) = W4 m c (Proc.devRef .tc main_arg3)).trans (W4_main_arg3 m c)
theorem W6_main_arg3 (c : Dev nD) : W6 m c (Proc.devRef .tc main_arg3) = m ((c : Thread nD τ).loc main_arg3) :=
  ((W6_of_ne m c main_arg3 (by decide)) : W6 m c (Proc.devRef .tc main_arg3) = W5 m c (Proc.devRef .tc main_arg3)).trans (W5_main_arg3 m c)
theorem W7_main_arg3 (c : Dev nD) : W7 m c (Proc.devRef .tc main_arg3) = m ((c : Thread nD τ).loc main_arg3) :=
  ((StableHlo.after_of_writes_sub hostOps2 _ hostOps2_writes (by decide : main_arg3 ∉ hostOps2_W)) : W7 m c (Proc.devRef .tc main_arg3) = W6 m c (Proc.devRef .tc main_arg3)).trans (W6_main_arg3 m c)

theorem W0_main_arg4 (c : Dev nD) : W0 m c (Proc.devRef .tc main_arg4) = m ((c : Thread nD τ).loc main_arg4) := rfl
theorem W1_main_arg4 (c : Dev nD) : W1 m c (Proc.devRef .tc main_arg4) = m ((c : Thread nD τ).loc main_arg4) :=
  ((StableHlo.after_of_writes_sub hostOps0 _ hostOps0_writes (by decide : main_arg4 ∉ hostOps0_W)) : W1 m c (Proc.devRef .tc main_arg4) = W0 m c (Proc.devRef .tc main_arg4)).trans (W0_main_arg4 m c)
theorem W2_main_arg4 (c : Dev nD) : W2 m c (Proc.devRef .tc main_arg4) = m ((c : Thread nD τ).loc main_arg4) :=
  ((StableHlo.after_of_writes_sub hostOps0_1 _ hostOps0_1_writes (by decide : main_arg4 ∉ hostOps0_1_W)) : W2 m c (Proc.devRef .tc main_arg4) = W1 m c (Proc.devRef .tc main_arg4)).trans (W1_main_arg4 m c)
theorem W3_main_arg4 (c : Dev nD) : W3 m c (Proc.devRef .tc main_arg4) = m ((c : Thread nD τ).loc main_arg4) :=
  ((StableHlo.after_of_writes_sub hostOps0_2 _ hostOps0_2_writes (by decide : main_arg4 ∉ hostOps0_2_W)) : W3 m c (Proc.devRef .tc main_arg4) = W2 m c (Proc.devRef .tc main_arg4)).trans (W2_main_arg4 m c)
theorem W4_main_arg4 (c : Dev nD) : W4 m c (Proc.devRef .tc main_arg4) = m ((c : Thread nD τ).loc main_arg4) :=
  ((W4_of_ne m c main_arg4 (by decide)) : W4 m c (Proc.devRef .tc main_arg4) = W3 m c (Proc.devRef .tc main_arg4)).trans (W3_main_arg4 m c)
theorem W5_main_arg4 (c : Dev nD) : W5 m c (Proc.devRef .tc main_arg4) = m ((c : Thread nD τ).loc main_arg4) :=
  ((StableHlo.after_of_writes_sub hostOps1 _ hostOps1_writes (by decide : main_arg4 ∉ hostOps1_W)) : W5 m c (Proc.devRef .tc main_arg4) = W4 m c (Proc.devRef .tc main_arg4)).trans (W4_main_arg4 m c)
theorem W6_main_arg4 (c : Dev nD) : W6 m c (Proc.devRef .tc main_arg4) = m ((c : Thread nD τ).loc main_arg4) :=
  (((W6_arr m c 4).trans (((dat1 (V5 m) c).arrAt_in 4 rfl _).trans (A_eq1 (V5 m) c 4))) : W6 m c (Proc.devRef .tc main_arg4) = W5 m c (Proc.devRef .tc main_arg4)).trans (W5_main_arg4 m c)
theorem W7_main_arg4 (c : Dev nD) : W7 m c (Proc.devRef .tc main_arg4) = m ((c : Thread nD τ).loc main_arg4) :=
  ((StableHlo.after_of_writes_sub hostOps2 _ hostOps2_writes (by decide : main_arg4 ∉ hostOps2_W)) : W7 m c (Proc.devRef .tc main_arg4) = W6 m c (Proc.devRef .tc main_arg4)).trans (W6_main_arg4 m c)

theorem W0_main_arg5 (c : Dev nD) : W0 m c (Proc.devRef .tc main_arg5) = m ((c : Thread nD τ).loc main_arg5) := rfl
theorem W1_main_arg5 (c : Dev nD) : W1 m c (Proc.devRef .tc main_arg5) = m ((c : Thread nD τ).loc main_arg5) :=
  ((StableHlo.after_of_writes_sub hostOps0 _ hostOps0_writes (by decide : main_arg5 ∉ hostOps0_W)) : W1 m c (Proc.devRef .tc main_arg5) = W0 m c (Proc.devRef .tc main_arg5)).trans (W0_main_arg5 m c)
theorem W2_main_arg5 (c : Dev nD) : W2 m c (Proc.devRef .tc main_arg5) = m ((c : Thread nD τ).loc main_arg5) :=
  ((StableHlo.after_of_writes_sub hostOps0_1 _ hostOps0_1_writes (by decide : main_arg5 ∉ hostOps0_1_W)) : W2 m c (Proc.devRef .tc main_arg5) = W1 m c (Proc.devRef .tc main_arg5)).trans (W1_main_arg5 m c)
theorem W3_main_arg5 (c : Dev nD) : W3 m c (Proc.devRef .tc main_arg5) = m ((c : Thread nD τ).loc main_arg5) :=
  ((StableHlo.after_of_writes_sub hostOps0_2 _ hostOps0_2_writes (by decide : main_arg5 ∉ hostOps0_2_W)) : W3 m c (Proc.devRef .tc main_arg5) = W2 m c (Proc.devRef .tc main_arg5)).trans (W2_main_arg5 m c)
theorem W4_main_arg5 (c : Dev nD) : W4 m c (Proc.devRef .tc main_arg5) = m ((c : Thread nD τ).loc main_arg5) :=
  ((W4_of_ne m c main_arg5 (by decide)) : W4 m c (Proc.devRef .tc main_arg5) = W3 m c (Proc.devRef .tc main_arg5)).trans (W3_main_arg5 m c)
theorem W5_main_arg5 (c : Dev nD) : W5 m c (Proc.devRef .tc main_arg5) = m ((c : Thread nD τ).loc main_arg5) :=
  ((StableHlo.after_of_writes_sub hostOps1 _ hostOps1_writes (by decide : main_arg5 ∉ hostOps1_W)) : W5 m c (Proc.devRef .tc main_arg5) = W4 m c (Proc.devRef .tc main_arg5)).trans (W4_main_arg5 m c)
theorem W6_main_arg5 (c : Dev nD) : W6 m c (Proc.devRef .tc main_arg5) = m ((c : Thread nD τ).loc main_arg5) :=
  (((W6_arr m c 5).trans (((dat1 (V5 m) c).arrAt_in 5 rfl _).trans (A_eq1 (V5 m) c 5))) : W6 m c (Proc.devRef .tc main_arg5) = W5 m c (Proc.devRef .tc main_arg5)).trans (W5_main_arg5 m c)
theorem W7_main_arg5 (c : Dev nD) : W7 m c (Proc.devRef .tc main_arg5) = m ((c : Thread nD τ).loc main_arg5) :=
  ((StableHlo.after_of_writes_sub hostOps2 _ hostOps2_writes (by decide : main_arg5 ∉ hostOps2_W)) : W7 m c (Proc.devRef .tc main_arg5) = W6 m c (Proc.devRef .tc main_arg5)).trans (W6_main_arg5 m c)

theorem W0_main_arg6 (c : Dev nD) : W0 m c (Proc.devRef .tc main_arg6) = m ((c : Thread nD τ).loc main_arg6) := rfl
theorem W1_main_arg6 (c : Dev nD) : W1 m c (Proc.devRef .tc main_arg6) = m ((c : Thread nD τ).loc main_arg6) :=
  ((StableHlo.after_of_writes_sub hostOps0 _ hostOps0_writes (by decide : main_arg6 ∉ hostOps0_W)) : W1 m c (Proc.devRef .tc main_arg6) = W0 m c (Proc.devRef .tc main_arg6)).trans (W0_main_arg6 m c)
theorem W2_main_arg6 (c : Dev nD) : W2 m c (Proc.devRef .tc main_arg6) = m ((c : Thread nD τ).loc main_arg6) :=
  ((StableHlo.after_of_writes_sub hostOps0_1 _ hostOps0_1_writes (by decide : main_arg6 ∉ hostOps0_1_W)) : W2 m c (Proc.devRef .tc main_arg6) = W1 m c (Proc.devRef .tc main_arg6)).trans (W1_main_arg6 m c)
theorem W3_main_arg6 (c : Dev nD) : W3 m c (Proc.devRef .tc main_arg6) = m ((c : Thread nD τ).loc main_arg6) :=
  ((StableHlo.after_of_writes_sub hostOps0_2 _ hostOps0_2_writes (by decide : main_arg6 ∉ hostOps0_2_W)) : W3 m c (Proc.devRef .tc main_arg6) = W2 m c (Proc.devRef .tc main_arg6)).trans (W2_main_arg6 m c)
theorem W4_main_arg6 (c : Dev nD) : W4 m c (Proc.devRef .tc main_arg6) = m ((c : Thread nD τ).loc main_arg6) :=
  ((W4_of_ne m c main_arg6 (by decide)) : W4 m c (Proc.devRef .tc main_arg6) = W3 m c (Proc.devRef .tc main_arg6)).trans (W3_main_arg6 m c)
theorem W5_main_arg6 (c : Dev nD) : W5 m c (Proc.devRef .tc main_arg6) = m ((c : Thread nD τ).loc main_arg6) :=
  ((StableHlo.after_of_writes_sub hostOps1 _ hostOps1_writes (by decide : main_arg6 ∉ hostOps1_W)) : W5 m c (Proc.devRef .tc main_arg6) = W4 m c (Proc.devRef .tc main_arg6)).trans (W4_main_arg6 m c)
theorem W6_main_arg6 (c : Dev nD) : W6 m c (Proc.devRef .tc main_arg6) = m ((c : Thread nD τ).loc main_arg6) :=
  ((W6_of_ne m c main_arg6 (by decide)) : W6 m c (Proc.devRef .tc main_arg6) = W5 m c (Proc.devRef .tc main_arg6)).trans (W5_main_arg6 m c)
theorem W7_main_arg6 (c : Dev nD) : W7 m c (Proc.devRef .tc main_arg6) = m ((c : Thread nD τ).loc main_arg6) :=
  ((StableHlo.after_of_writes_sub hostOps2 _ hostOps2_writes (by decide : main_arg6 ∉ hostOps2_W)) : W7 m c (Proc.devRef .tc main_arg6) = W6 m c (Proc.devRef .tc main_arg6)).trans (W6_main_arg6 m c)

theorem W0_main_arg7 (c : Dev nD) : W0 m c (Proc.devRef .tc main_arg7) = m ((c : Thread nD τ).loc main_arg7) := rfl
theorem W1_main_arg7 (c : Dev nD) : W1 m c (Proc.devRef .tc main_arg7) = m ((c : Thread nD τ).loc main_arg7) :=
  ((StableHlo.after_of_writes_sub hostOps0 _ hostOps0_writes (by decide : main_arg7 ∉ hostOps0_W)) : W1 m c (Proc.devRef .tc main_arg7) = W0 m c (Proc.devRef .tc main_arg7)).trans (W0_main_arg7 m c)
theorem W2_main_arg7 (c : Dev nD) : W2 m c (Proc.devRef .tc main_arg7) = m ((c : Thread nD τ).loc main_arg7) :=
  ((StableHlo.after_of_writes_sub hostOps0_1 _ hostOps0_1_writes (by decide : main_arg7 ∉ hostOps0_1_W)) : W2 m c (Proc.devRef .tc main_arg7) = W1 m c (Proc.devRef .tc main_arg7)).trans (W1_main_arg7 m c)
theorem W3_main_arg7 (c : Dev nD) : W3 m c (Proc.devRef .tc main_arg7) = m ((c : Thread nD τ).loc main_arg7) :=
  ((StableHlo.after_of_writes_sub hostOps0_2 _ hostOps0_2_writes (by decide : main_arg7 ∉ hostOps0_2_W)) : W3 m c (Proc.devRef .tc main_arg7) = W2 m c (Proc.devRef .tc main_arg7)).trans (W2_main_arg7 m c)
theorem W4_main_arg7 (c : Dev nD) : W4 m c (Proc.devRef .tc main_arg7) = m ((c : Thread nD τ).loc main_arg7) :=
  ((W4_of_ne m c main_arg7 (by decide)) : W4 m c (Proc.devRef .tc main_arg7) = W3 m c (Proc.devRef .tc main_arg7)).trans (W3_main_arg7 m c)
theorem W5_main_arg7 (c : Dev nD) : W5 m c (Proc.devRef .tc main_arg7) = m ((c : Thread nD τ).loc main_arg7) :=
  ((StableHlo.after_of_writes_sub hostOps1 _ hostOps1_writes (by decide : main_arg7 ∉ hostOps1_W)) : W5 m c (Proc.devRef .tc main_arg7) = W4 m c (Proc.devRef .tc main_arg7)).trans (W4_main_arg7 m c)
theorem W6_main_arg7 (c : Dev nD) : W6 m c (Proc.devRef .tc main_arg7) = m ((c : Thread nD τ).loc main_arg7) :=
  ((W6_of_ne m c main_arg7 (by decide)) : W6 m c (Proc.devRef .tc main_arg7) = W5 m c (Proc.devRef .tc main_arg7)).trans (W5_main_arg7 m c)
theorem W7_main_arg7 (c : Dev nD) : W7 m c (Proc.devRef .tc main_arg7) = m ((c : Thread nD τ).loc main_arg7) :=
  ((StableHlo.after_of_writes_sub hostOps2 _ hostOps2_writes (by decide : main_arg7 ∉ hostOps2_W)) : W7 m c (Proc.devRef .tc main_arg7) = W6 m c (Proc.devRef .tc main_arg7)).trans (W6_main_arg7 m c)

theorem W0_main_arg8 (c : Dev nD) : W0 m c (Proc.devRef .tc main_arg8) = m ((c : Thread nD τ).loc main_arg8) := rfl
theorem W1_main_arg8 (c : Dev nD) : W1 m c (Proc.devRef .tc main_arg8) = m ((c : Thread nD τ).loc main_arg8) :=
  ((StableHlo.after_of_writes_sub hostOps0 _ hostOps0_writes (by decide : main_arg8 ∉ hostOps0_W)) : W1 m c (Proc.devRef .tc main_arg8) = W0 m c (Proc.devRef .tc main_arg8)).trans (W0_main_arg8 m c)
theorem W2_main_arg8 (c : Dev nD) : W2 m c (Proc.devRef .tc main_arg8) = m ((c : Thread nD τ).loc main_arg8) :=
  ((StableHlo.after_of_writes_sub hostOps0_1 _ hostOps0_1_writes (by decide : main_arg8 ∉ hostOps0_1_W)) : W2 m c (Proc.devRef .tc main_arg8) = W1 m c (Proc.devRef .tc main_arg8)).trans (W1_main_arg8 m c)
theorem W3_main_arg8 (c : Dev nD) : W3 m c (Proc.devRef .tc main_arg8) = m ((c : Thread nD τ).loc main_arg8) :=
  ((StableHlo.after_of_writes_sub hostOps0_2 _ hostOps0_2_writes (by decide : main_arg8 ∉ hostOps0_2_W)) : W3 m c (Proc.devRef .tc main_arg8) = W2 m c (Proc.devRef .tc main_arg8)).trans (W2_main_arg8 m c)
theorem W4_main_arg8 (c : Dev nD) : W4 m c (Proc.devRef .tc main_arg8) = m ((c : Thread nD τ).loc main_arg8) :=
  ((W4_of_ne m c main_arg8 (by decide)) : W4 m c (Proc.devRef .tc main_arg8) = W3 m c (Proc.devRef .tc main_arg8)).trans (W3_main_arg8 m c)
theorem W5_main_arg8 (c : Dev nD) : W5 m c (Proc.devRef .tc main_arg8) = m ((c : Thread nD τ).loc main_arg8) :=
  ((StableHlo.after_of_writes_sub hostOps1 _ hostOps1_writes (by decide : main_arg8 ∉ hostOps1_W)) : W5 m c (Proc.devRef .tc main_arg8) = W4 m c (Proc.devRef .tc main_arg8)).trans (W4_main_arg8 m c)
theorem W6_main_arg8 (c : Dev nD) : W6 m c (Proc.devRef .tc main_arg8) = m ((c : Thread nD τ).loc main_arg8) :=
  ((W6_of_ne m c main_arg8 (by decide)) : W6 m c (Proc.devRef .tc main_arg8) = W5 m c (Proc.devRef .tc main_arg8)).trans (W5_main_arg8 m c)
theorem W7_main_arg8 (c : Dev nD) : W7 m c (Proc.devRef .tc main_arg8) = m ((c : Thread nD τ).loc main_arg8) :=
  ((StableHlo.after_of_writes_sub hostOps2 _ hostOps2_writes (by decide : main_arg8 ∉ hostOps2_W)) : W7 m c (Proc.devRef .tc main_arg8) = W6 m c (Proc.devRef .tc main_arg8)).trans (W6_main_arg8 m c)

theorem W0_main_arg9 (c : Dev nD) : W0 m c (Proc.devRef .tc main_arg9) = m ((c : Thread nD τ).loc main_arg9) := rfl
theorem W1_main_arg9 (c : Dev nD) : W1 m c (Proc.devRef .tc main_arg9) = m ((c : Thread nD τ).loc main_arg9) :=
  ((StableHlo.after_of_writes_sub hostOps0 _ hostOps0_writes (by decide : main_arg9 ∉ hostOps0_W)) : W1 m c (Proc.devRef .tc main_arg9) = W0 m c (Proc.devRef .tc main_arg9)).trans (W0_main_arg9 m c)
theorem W2_main_arg9 (c : Dev nD) : W2 m c (Proc.devRef .tc main_arg9) = m ((c : Thread nD τ).loc main_arg9) :=
  ((StableHlo.after_of_writes_sub hostOps0_1 _ hostOps0_1_writes (by decide : main_arg9 ∉ hostOps0_1_W)) : W2 m c (Proc.devRef .tc main_arg9) = W1 m c (Proc.devRef .tc main_arg9)).trans (W1_main_arg9 m c)
theorem W3_main_arg9 (c : Dev nD) : W3 m c (Proc.devRef .tc main_arg9) = m ((c : Thread nD τ).loc main_arg9) :=
  ((StableHlo.after_of_writes_sub hostOps0_2 _ hostOps0_2_writes (by decide : main_arg9 ∉ hostOps0_2_W)) : W3 m c (Proc.devRef .tc main_arg9) = W2 m c (Proc.devRef .tc main_arg9)).trans (W2_main_arg9 m c)
theorem W4_main_arg9 (c : Dev nD) : W4 m c (Proc.devRef .tc main_arg9) = m ((c : Thread nD τ).loc main_arg9) :=
  ((W4_of_ne m c main_arg9 (by decide)) : W4 m c (Proc.devRef .tc main_arg9) = W3 m c (Proc.devRef .tc main_arg9)).trans (W3_main_arg9 m c)
theorem W5_main_arg9 (c : Dev nD) : W5 m c (Proc.devRef .tc main_arg9) = m ((c : Thread nD τ).loc main_arg9) :=
  ((StableHlo.after_of_writes_sub hostOps1 _ hostOps1_writes (by decide : main_arg9 ∉ hostOps1_W)) : W5 m c (Proc.devRef .tc main_arg9) = W4 m c (Proc.devRef .tc main_arg9)).trans (W4_main_arg9 m c)
theorem W6_main_arg9 (c : Dev nD) : W6 m c (Proc.devRef .tc main_arg9) = m ((c : Thread nD τ).loc main_arg9) :=
  ((W6_of_ne m c main_arg9 (by decide)) : W6 m c (Proc.devRef .tc main_arg9) = W5 m c (Proc.devRef .tc main_arg9)).trans (W5_main_arg9 m c)
theorem W7_main_arg9 (c : Dev nD) : W7 m c (Proc.devRef .tc main_arg9) = m ((c : Thread nD τ).loc main_arg9) :=
  ((StableHlo.after_of_writes_sub hostOps2 _ hostOps2_writes (by decide : main_arg9 ∉ hostOps2_W)) : W7 m c (Proc.devRef .tc main_arg9) = W6 m c (Proc.devRef .tc main_arg9)).trans (W6_main_arg9 m c)

/-- The program runs to the end from any memory with zero counters, and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c)⟩) (run_all m ρ)

end Cert.KernelIdeal.Frame

end
-- ==== Proof.KI.HostVals.lean ====
/-
  What the stretches of host operations between the regions compute, as named functions of the buffers they read:
  `dinvK` the inverse in-degree of every node from the edge targets; `aggK` the neighbour sum of a node table
  over the edges (each edge's source row gathered, then added into its target row); `denK` the number of nodes of
  each graph, at least one, repeated across the columns; `outK` the two halves of the pooled sums added and divided
  by that. First each stretch's results from ANY contents it starts from; then, at each region's entry and at the
  return, what each buffer the regions read or the program returns holds, in terms of the launch memory.
-/
import proofs.«428029_j66185446031414_3_alg».proof.Proof.KI.Args

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Frame Idealize.ShloMosaic.StableHlo

variable {F : FTy → Type} [FloatOps F]

/-- The inverse in-degree: `1 / max(deg, 1)` where the degree is positive, else zero. -/
def dinvK (x8 : (⟨S1600000, .i32⟩ : BufTy).Contents (Elt F)) : (⟨S100000, .f32⟩ : BufTy).Contents (Elt F) :=
  (select ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x8) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x00000000#32))) ((Host.divf : (⟨S100000, .f32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x3F800000#32)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x8) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) ((broadcastInDim S100000 ![] bcast_S_S100000) (id (constant S_ .f32 0x00000000#32))))

/-- The neighbour sum of the table `tbl` over the edges `(x7, x8)`. -/
def aggK (tbl : (⟨S100000x128, .f32⟩ : BufTy).Contents (Elt F)) (x7 x8 : (⟨S1600000, .i32⟩ : BufTy).Contents (Elt F)) : (⟨S100000x128, .f32⟩ : BufTy).Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) x8) (((extf .f32 · bitsLt_bf16_f32) : (⟨S1600000x128, .bf16⟩ : BufTy).Contents (Elt F) → (⟨S1600000x128, .f32⟩ : BufTy).Contents (Elt F)) (((fun x i => Host.gather gather_S100000x128_S1600000x1_S1600000x128_1_0_n_n_0_1_1128 x i) : (⟨S100000x128, .bf16⟩ : BufTy).Contents (Elt F) → (⟨S1600000x1, .i32⟩ : BufTy).Contents (Elt F) → (⟨S1600000x128, .bf16⟩ : BufTy).Contents (Elt F)) (((truncf .bf16 · bitsLt_bf16_f32) : (⟨S100000x128, .f32⟩ : BufTy).Contents (Elt F) → (⟨S100000x128, .bf16⟩ : BufTy).Contents (Elt F)) tbl) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x7 ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) x7 ((broadcastInDim S1600000 ![] bcast_S_S1600000 : (⟨S_, .i32⟩ : BufTy).Contents (Elt F) → (⟨S1600000, .i32⟩ : BufTy).Contents (Elt F)) (constantI S_ 32 100000#32))) x7)))))

/-- Each graph's node count, at least one, across the columns. -/
def denK (x9 : (⟨S100000, .i32⟩ : BufTy).Contents (Elt F)) : (⟨S128x128, .f32⟩ : BufTy).Contents (Elt F) :=
  ((broadcastInDim S128x128 ![0, 1] bcast_S128x1_S128x128_0_1 : (⟨S128x1, .f32⟩ : BufTy).Contents (Elt F) → (⟨S128x128, .f32⟩ : BufTy).Contents (Elt F)) ((broadcastInDim S128x1 ![0] bcast_S128_S128x1_0 : (⟨S128, .f32⟩ : BufTy).Contents (Elt F) → (⟨S128x1, .f32⟩ : BufTy).Contents (Elt F)) ((maximumf : (⟨S128, .f32⟩ : BufTy).Contents (Elt F) → (⟨S128, .f32⟩ : BufTy).Contents (Elt F) → (⟨S128, .f32⟩ : BufTy).Contents (Elt F)) (((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)) ((broadcastInDim S128 ![] bcast_S_S128 : (⟨S_, .f32⟩ : BufTy).Contents (Elt F) → (⟨S128, .f32⟩ : BufTy).Contents (Elt F)) (constant S_ .f32 0x00000000#32)) ((broadcastInDim S100000x1 ![0] bcast_S100000_S100000x1_0 : (⟨S100000, .i32⟩ : BufTy).Contents (Elt F) → (⟨S100000x1, .i32⟩ : BufTy).Contents (Elt F)) x9) ((broadcastInDim S100000 ![] bcast_S_S100000 : (⟨S_, .f32⟩ : BufTy).Contents (Elt F) → (⟨S100000, .f32⟩ : BufTy).Contents (Elt F)) (constant S_ .f32 0x3F800000#32))) ((broadcastInDim S128 ![] bcast_S_S128 : (⟨S_, .f32⟩ : BufTy).Contents (Elt F) → (⟨S128, .f32⟩ : BufTy).Contents (Elt F)) (constant S_ .f32 0x3F800000#32)))))

/-- The result: the two halves added, divided by the counts. -/
def outK (acc : (⟨S2x128x128, .f32⟩ : BufTy).Contents (Elt F)) (x9 : (⟨S100000, .i32⟩ : BufTy).Contents (Elt F)) : (⟨S128x128, .f32⟩ : BufTy).Contents (Elt F) :=
  ((Host.divf : (⟨S128x128, .f32⟩ : BufTy).Contents (Elt F) → (⟨S128x128, .f32⟩ : BufTy).Contents (Elt F) → (⟨S128x128, .f32⟩ : BufTy).Contents (Elt F)) ((addf : (⟨S128x128, .f32⟩ : BufTy).Contents (Elt F) → (⟨S128x128, .f32⟩ : BufTy).Contents (Elt F) → (⟨S128x128, .f32⟩ : BufTy).Contents (Elt F)) (shapeCast S128x128 (((extractStridedSlice S1x128x128 ![0, 0, 0] · slices_S2x128x128_S1x128x128_0_0_0) : (⟨S2x128x128, .f32⟩ : BufTy).Contents (Elt F) → (⟨S1x128x128, .f32⟩ : BufTy).Contents (Elt F)) acc) shapeCasts_S1x128x128_S128x128) (shapeCast S128x128 (((extractStridedSlice S1x128x128 ![1, 0, 0] · slices_S2x128x128_S1x128x128_1_0_0) : (⟨S2x128x128, .f32⟩ : BufTy).Contents (Elt F) → (⟨S1x128x128, .f32⟩ : BufTy).Contents (Elt F)) acc) shapeCasts_S1x128x128_S128x128)) (denK x9))

/-! ## Each stretch from any contents -/

section Stretch
variable (W : Valuation τ sig (Elt F))

set_option maxHeartbeats 2000000 in
theorem pre_v10 : StableHlo.after hostOps0_1 (StableHlo.after hostOps0 W) (Proc.devRef .tc main_v10) = dinvK (W (Proc.devRef .tc main_arg8)) := by
  after_results
  (try simp only [TRef.ofBuf, TRef.toBuf, cast_eq])
  unfold dinvK
  rfl

set_option maxHeartbeats 2000000 in
theorem s02_v22 : StableHlo.after hostOps0_2 W (Proc.devRef .tc main_v22) = aggK (W (Proc.devRef .tc main_arg0)) (W (Proc.devRef .tc main_arg7)) (W (Proc.devRef .tc main_arg8)) := by
  after_results
  unfold aggK
  rfl

set_option maxHeartbeats 2000000 in
theorem s02_v24 : StableHlo.after hostOps0_2 W (Proc.devRef .tc main_v24) = shapeCast S100000x1 (W (Proc.devRef .tc main_v10)) shapeCasts_S100000_S100000x1 := by
  after_results
  rfl

set_option maxHeartbeats 2000000 in
theorem s02_v23 : StableHlo.after hostOps0_2 W (Proc.devRef .tc main_v23) = shapeCast S1x128 (W (Proc.devRef .tc main_arg3)) shapeCasts_S128_S1x128 := by
  after_results
  rfl

theorem s02_v10 : StableHlo.after hostOps0_2 W (Proc.devRef .tc main_v10) = (W (Proc.devRef .tc main_v10)) :=
  StableHlo.after_of_writes_sub hostOps0_2 _ hostOps0_2_writes (by decide : main_v10 ∉ hostOps0_2_W)

set_option maxHeartbeats 2000000 in
theorem s1_v37 : StableHlo.after hostOps1 W (Proc.devRef .tc main_v37) = aggK (W (Proc.devRef .tc main_v25)) (W (Proc.devRef .tc main_arg7)) (W (Proc.devRef .tc main_arg8)) := by
  after_results
  unfold aggK
  rfl

set_option maxHeartbeats 2000000 in
theorem s1_v39 : StableHlo.after hostOps1 W (Proc.devRef .tc main_v39) = shapeCast S100000x1 (W (Proc.devRef .tc main_v10)) shapeCasts_S100000_S100000x1 := by
  after_results
  rfl

set_option maxHeartbeats 2000000 in
theorem s1_v38 : StableHlo.after hostOps1 W (Proc.devRef .tc main_v38) = shapeCast S1x128 (W (Proc.devRef .tc main_arg6)) shapeCasts_S128_S1x128 := by
  after_results
  rfl

set_option maxHeartbeats 2000000 in
theorem s1_v40 : StableHlo.after hostOps1 W (Proc.devRef .tc main_v40) = shapeCast S100000x1 (W (Proc.devRef .tc main_arg9)) shapeCasts_S100000_S100000x1 := by
  after_results
  rfl

set_option maxHeartbeats 2000000 in
theorem s2_v55 : StableHlo.after hostOps2 W (Proc.devRef .tc main_v55) = outK (W (Proc.devRef .tc main_v41)) (W (Proc.devRef .tc main_arg9)) := by
  after_results
  unfold outK denK
  rfl

end Stretch

variable (m : (ℓ : Loc nD τ sig) → Buf (Elt F) ℓ) (c : Dev nD)

/-! ## At region 0's entry -/

theorem W2_v10 : W2 m c (Proc.devRef .tc main_v10) = dinvK (m ((c : Thread nD τ).loc main_arg8)) :=
  (pre_v10 (W0 m c)).trans (congrArg dinvK (W0_main_arg8 m c))

theorem W3_v10 : W3 m c (Proc.devRef .tc main_v10) = dinvK (m ((c : Thread nD τ).loc main_arg8)) :=
  (s02_v10 (W2 m c)).trans (W2_v10 m c)

theorem W3_v22 : W3 m c (Proc.devRef .tc main_v22) = aggK (m ((c : Thread nD τ).loc main_arg0)) (m ((c : Thread nD τ).loc main_arg7)) (m ((c : Thread nD τ).loc main_arg8)) := by
  refine (s02_v22 (W2 m c)).trans ?_
  rw [W2_main_arg0, W2_main_arg7, W2_main_arg8]

theorem W3_v24 : W3 m c (Proc.devRef .tc main_v24) = shapeCast S100000x1 (dinvK (m ((c : Thread nD τ).loc main_arg8))) shapeCasts_S100000_S100000x1 := by
  refine (s02_v24 (W2 m c)).trans ?_
  rw [W2_v10]

theorem W3_v23 : W3 m c (Proc.devRef .tc main_v23) = shapeCast S1x128 (m ((c : Thread nD τ).loc main_arg3)) shapeCasts_S128_S1x128 := by
  refine (s02_v23 (W2 m c)).trans ?_
  rw [W2_main_arg3]

/-! ## At region 1's entry -/

theorem W4_v10 : W4 m c (Proc.devRef .tc main_v10) = dinvK (m ((c : Thread nD τ).loc main_arg8)) :=
  (W4_of_ne m c main_v10 (by decide)).trans (W3_v10 m c)

theorem W5_v25 : W5 m c (Proc.devRef .tc main_v25) = (dat0 (V3 m) c).arrAt 6 cfg0.N :=
  (StableHlo.after_of_writes_sub hostOps1 _ hostOps1_writes (by decide : main_v25 ∉ hostOps1_W)).trans (W4_arr m c 6)

theorem W5_v37 : W5 m c (Proc.devRef .tc main_v37) = aggK ((dat0 (V3 m) c).arrAt 6 cfg0.N) (m ((c : Thread nD τ).loc main_arg7)) (m ((c : Thread nD τ).loc main_arg8)) := by
  refine (s1_v37 (W4 m c)).trans ?_
  rw [W4_main_arg7, W4_main_arg8, W4_arr m c 6]

theorem W5_v39 : W5 m c (Proc.devRef .tc main_v39) = shapeCast S100000x1 (dinvK (m ((c : Thread nD τ).loc main_arg8))) shapeCasts_S100000_S100000x1 := by
  refine (s1_v39 (W4 m c)).trans ?_
  rw [W4_v10]

theorem W5_v38 : W5 m c (Proc.devRef .tc main_v38) = shapeCast S1x128 (m ((c : Thread nD τ).loc main_arg6)) shapeCasts_S128_S1x128 := by
  refine (s1_v38 (W4 m c)).trans ?_
  rw [W4_main_arg6]

theorem W5_v40 : W5 m c (Proc.devRef .tc main_v40) = shapeCast S100000x1 (m ((c : Thread nD τ).loc main_arg9)) shapeCasts_S100000_S100000x1 := by
  refine (s1_v40 (W4 m c)).trans ?_
  rw [W4_main_arg9]

/-! ## At the return -/

theorem W7_v55 : W7 m c (Proc.devRef .tc main_v55) = outK ((dat1 (V5 m) c).arrAt 7 cfg1.N) (m ((c : Thread nD τ).loc main_arg9)) := by
  refine (s2_v55 (W6 m c)).trans ?_
  rw [W6_main_arg9, W6_arr m c 7]

end Cert.KernelIdeal.Val

end
-- ==== Proof.KI.OutVal.lean ====
/-
  The program's result at row `g`, column `d`: the two halves of the pooled sums, entries `(0, g, d)` and `(1, g, d)`
  of the region's output, added and divided by the graph's node count.
-/
import proofs.«428029_j66185446031414_3_alg».proof.Proof.KI.HostVals
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx
open Cert.KernelIdeal Cert.KernelIdeal.Gen

theorem slice0_apply (acc : (⟨S2x128x128, .f32⟩ : BufTy).Contents (Elt Ideal)) (g d : Fin 128) :
    shapeCast S128x128 (extractStridedSlice S1x128x128 ![0, 0, 0] acc slices_S2x128x128_S1x128x128_0_0_0) shapeCasts_S1x128x128_S128x128 (ix2 g d)
      = acc (ix3 (0 : Fin 2) g d) := by
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

theorem slice1_apply (acc : (⟨S2x128x128, .f32⟩ : BufTy).Contents (Elt Ideal)) (g d : Fin 128) :
    shapeCast S128x128 (extractStridedSlice S1x128x128 ![1, 0, 0] acc slices_S2x128x128_S1x128x128_1_0_0) shapeCasts_S1x128x128_S128x128 (ix2 g d)
      = acc (ix3 (1 : Fin 2) g d) := by
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

/-- A host division at an index divides the entries. -/
theorem hdivf_apply {s : Shape} (a b : FVec Ideal s .f32) (i : s.Idx) : Host.divf a b i = Ideal.div (a i) (b i) := rfl

/-- The result at `(g, d)`. -/
theorem outK_apply (acc : (⟨S2x128x128, .f32⟩ : BufTy).Contents (Elt Ideal)) (x9 : (⟨S100000, .i32⟩ : BufTy).Contents (Elt Ideal)) (g d : Fin 128) :
    outK (F := Ideal) acc x9 (ix2 g d)
      = Ideal.div (acc (ix3 (0 : Fin 2) g d) + acc (ix3 (1 : Fin 2) g d)) (denK (F := Ideal) x9 (ix2 g d)) := by
  unfold outK
  rw [hdivf_apply, addf_apply, slice0_apply, slice1_apply]

end Cert.KernelIdeal.Val

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KI.Value0Pay.lean ====
/-
  The first layer's tile at one entry. On a tile of 5000 rows the kernel forms
  `max ((x · Ws + (a ⊙ dv) · Wn) + b) z`: two matrix products over the 128 features, each accumulated from
  zero, the second one's left factor the neighbour sum scaled row by row by the inverse degree (a column,
  repeated across the 128 columns), the bias a single row repeated down the tile, and the maximum taken
  against the constant `z`. Over the extended reals the format changes are the identity and a product
  accumulated from zero is the plain sum over the contracted index, so entry (p, q) of the tile is
  `max ((∑ k, x p k * Ws k q + ∑ k, (a p k * dv p) * Wn k q) + b q) z`.
-/
import proofs.«428029_j66185446031414_3_alg».proof.Proof.Gen.KernelIdeal.Skeleton
import proofs.«428029_j66185446031414_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The product's operand indices: the left operand is read at (row, k), the right at (k, column) -/

theorem lhs_dot0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a [5000,128] by a [128,128] matrix accumulated from the zero tile, at entry (p, q): the sum
    over the contracted index `k` of left (p, k) times right (k, q). -/
theorem mm_apply (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  refine (Ideal.matmul_constant_zero_apply dot_S5000x128_S128x128_S5000x128_1_0_0_1_n_n none L R (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er]

/-- Entry (p, q) of the tile the kernel stores, from the six tiles it loads. -/
theorem pay_apply (x0 x1 : Vec Ideal S5000x128 .f32) (x2 : Vec Ideal S5000x1 .f32) (x3 x4 : Vec Ideal S128x128 .f32)
    (x5 : Vec Ideal S1x128 .f32) (p : Fin 5000) (q : Fin 128) :
    k0_pay1 (F := Ideal) x0 x1 x2 x3 x4 x5 (ix2 p q)
      = max (((∑ k : Fin 128, x0 (ix2 p k) * x3 (ix2 k q)) + ∑ k : Fin 128, (x1 (ix2 p k) * x2 (ix2 p 0)) * x4 (ix2 k q)) + x5 (ix2 0 q))
          (Ideal.ofBits .f32 0x00000000#32) := by
  unfold k0_pay1
  have e1 : matmul dot_S5000x128_S128x128_S5000x128_1_0_0_1_n_n none (truncf .bf16 x0 bitsLt_bf16_f32) (truncf .bf16 x3 bitsLt_bf16_f32)
      (constant (F := Ideal) S5000x128 .f32 0x00000000#32) (ix2 p q) = ∑ k : Fin 128, x0 (ix2 p k) * x3 (ix2 k q) :=
    mm_apply _ _ p q
  have e2 : matmul dot_S5000x128_S128x128_S5000x128_1_0_0_1_n_n none
      (truncf .bf16 (mulf (shapeCast S5000x128 x1 shapeCasts_S5000x128_S5000x128)
        (broadcastTo S5000x128 (shapeCast S5000x1 x2 shapeCasts_S5000x1_S5000x1) broadcasts_S5000x1_S5000x128)) bitsLt_bf16_f32)
      (truncf .bf16 x4 bitsLt_bf16_f32) (constant (F := Ideal) S5000x128 .f32 0x00000000#32) (ix2 p q)
        = ∑ k : Fin 128, (x1 (ix2 p k) * x2 (ix2 p 0)) * x4 (ix2 k q) := by
    refine (mm_apply _ _ p q).trans (Finset.sum_congr rfl fun k _ => ?_)
    have hs : shapeCast S5000x128 x1 shapeCasts_S5000x128_S5000x128 (ix2 p k) = x1 (ix2 p k) := by rw [shapeCast_self]
    have hc : broadcastTo S5000x128 (shapeCast S5000x1 x2 shapeCasts_S5000x1_S5000x1) broadcasts_S5000x1_S5000x128 (ix2 p k)
        = x2 (ix2 p 0) := by
      rw [shapeCast_self]; exact Cert.LibColumn.broadcastTo_a1_ab_apply x2 _ p k
    exact congrArg (· * x4 (ix2 k q)) (congrArg₂ (· * ·) hs hc)
  have e3 : broadcastTo S5000x128 (shapeCast S1x128 x5 shapeCasts_S1x128_S1x128) broadcasts_S1x128_S5000x128 (ix2 p q)
      = x5 (ix2 0 q) := by
    rw [shapeCast_self]; exact broadcastTo_1b_ab_apply x5 _ p q
  exact congrArg (max · (Ideal.ofBits .f32 0x00000000#32)) (congrArg₂ (· + ·) (congrArg₂ (· + ·) e1 e2) e3)

end Cert.KernelIdeal.Val

end
-- ==== Proof.Spec.lean ====
/-
  The mathematics both programs compute, over plain finite indices and the extended reals.

  A node table has 100000 rows of 128 features. One mean-aggregating layer sends row `r` to
  `max (x r · Ws + (a r ⊙ dv r) · Wn + b) z`, where `a` is the neighbour sum, `dv` the inverse degree and
  `z` the zero the comparison is made against. The pooled result adds, for graph `g`, the rows whose graph id
  is `g`. One program forms that sum tile by tile (two halves of 25 tiles of 2000 rows, each tile's rows
  weighted by a 0/1 indicator); the other sums over the rows whose id is `g` directly. `pool_eq` says the
  two sums agree: the indicator is 0 or 1, `0 * x = 0` and `1 * x = x` hold for every extended real, and
  addition of extended reals is commutative and associative, so no finiteness is needed.
-/
import Idealize.ShloMosaic.PureOps.Ideal
import Mathlib.Algebra.BigOperators.Intervals
import Mathlib.Algebra.BigOperators.Fin

noncomputable section

namespace Cert.Spec

open Idealize.ShloMosaic

/-- Row `r`, column `d` of one layer: `max (x r · Ws + (a r ⊙ dv r) · Wn + b) z`. -/
def layer (z : EReal) (x a : Fin 100000 → Fin 128 → EReal) (dv : Fin 100000 → EReal)
    (Ws Wn : Fin 128 → Fin 128 → EReal) (b : Fin 128 → EReal) (r : Fin 100000) (d : Fin 128) : EReal :=
  max (((∑ k : Fin 128, x r k * Ws k d) + ∑ k : Fin 128, (a r k * dv r) * Wn k d) + b d) z

/-- The indicator that the 32-bit id `w` names graph `g`. -/
def oh (w : BitVec 32) (g : Fin 128) : EReal := if BitVec.ofNat 32 g.val = w then 1 else 0

/-- Tile `t`'s contribution to graph `g`, column `d`: its 2000 rows weighted by the indicator (a tile past the
    table contributes nothing). -/
def part (H : Fin 100000 → Fin 128 → EReal) (gid : Fin 100000 → BitVec 32) (t : ℕ) (g d : Fin 128) : EReal :=
  ∑ n : Fin 2000, if h : 2000 * t + n.val < 100000 then oh (gid ⟨2000 * t + n.val, h⟩) g * H ⟨2000 * t + n.val, h⟩ d else 0

/-- Half `c` of the table, tiles `25 c … 25 c + 24`, summed in order. -/
def half (H : Fin 100000 → Fin 128 → EReal) (gid : Fin 100000 → BitVec 32) (c : ℕ) (g d : Fin 128) : EReal :=
  ∑ s ∈ Finset.range 25, part H gid (25 * c + s) g d

/-- The sum over every row of the table, weighted by the indicator. -/
def pooled (H : Fin 100000 → Fin 128 → EReal) (gid : Fin 100000 → BitVec 32) (g d : Fin 128) : EReal :=
  ∑ r : Fin 100000, oh (gid r) g * H r d

end Cert.Spec

end
-- ==== Proof.KI.Value0.lean ====
/-
  What region 0's output array holds when the region ends, over the extended reals: the first layer's table.
  The region walks the 100000 rows in 20 tiles of 5000. At tile `t` the kernel reads rows
  `5000 t … 5000 t + 4999` of the node features, of the neighbour sums and of the inverse degrees, the two
  128 × 128 weight matrices and the bias row whole, and writes rows `5000 t … 5000 t + 4999` of the output.
  Entry (p, q) of what it writes is `max ((∑ k, x p k * Ws k q + ∑ k, (a p k * dv p) * Wn k q) + b q) z` of the
  tiles; a tile's entry (p, k) is the array's entry (5000 t + p, k), so the written tile is tile `t` of ONE
  table `h1`, the layer of the whole arrays. Row `r` lies in tile `r / 5000`, every tile is written back, so
  the tiles cover the array and it ends holding `h1` everywhere.
-/
import proofs.«428029_j66185446031414_3_alg».proof.Proof.KI.Region0
import proofs.«428029_j66185446031414_3_alg».proof.Proof.KI.Value0Pay
import proofs.«428029_j66185446031414_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- the first layer's table, row r column d, from the arrays region 0 finds -/
def h1 (c : Dev nD) (r : Fin 100000) (d : Fin 128) : EReal :=
  Cert.Spec.layer (Ideal.ofBits .f32 0x00000000#32) (fun r k => (V c main_arg0 : S100000x128.Idx → EReal) (ix2 r k)) (fun r k => (V c main_v22 : S100000x128.Idx → EReal) (ix2 r k))
    (fun r => (V c main_v24 : S100000x1.Idx → EReal) (ix2 r 0)) (fun k d => (V c main_arg1 : S128x128.Idx → EReal) (ix2 k d)) (fun k d => (V c main_arg2 : S128x128.Idx → EReal) (ix2 k d))
    (fun d => (V c main_v23 : S1x128.Idx → EReal) (ix2 0 d)) r d

/-- The table as one array. -/
def tab0 (c : Dev nD) : S100000x128.Idx → EReal := fun i => h1 V c (i 0) (i 1)

/-- The zero offsets, however spelt. -/
theorem hz : (![0, 0] : Fin 2 → Nat) = fun _ => 0 := funext fun a => by fin_cases a <;> rfl

/-- The index maps, decided over the grid: the three row-tiled inputs and the output are at tile `t` on the row axis
    and 0 on the column axis; the weights and the bias are at tile (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node features' tile `t`, entry (p, k), is the array's entry (5000 t + p, k). -/
theorem blk0_apply (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → EReal) (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The neighbour sums' tile `t`, entry (p, k), is the array's entry (5000 t + p, k). -/
theorem blk1_apply (c : Dev nD) (t : Fin cfg0.N) (p : Fin 5000) (k : Fin 128) (r : Fin 100000) (hr : r.val = t.val * 5000 + p.val) :
    (iblk0 V c 1 t : Vec Ideal S5000x128 .f32) (ix2 p k) = (V c main_v22 : S100000x128.Idx → EReal) (ix2 r k) := by
  obtain ⟨-, -, e0, e1, -⟩ := idx_facts t
  show V c main_v22 (((cfg0.win 1).blk t).view.emb (ix2 p k)) = V c main_v22 (ix2 r k)
  refine congrArg (V c main_v22) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The inverse degrees' tile `t`, entry p, is the array's entry 5000 t + p. -/
theorem blk2_apply (c : Dev nD) (t : Fin cfg0.N) (p : Fin 5000) (r : Fin 100000) (hr : r.val = t.val * 5000 + p.val) :
    (iblk0 V c 2 t : Vec Ideal S5000x1 .f32) (ix2 p 0) = (V c main_v24 : S100000x1.Idx → EReal) (ix2 r 0) := by
  obtain ⟨-, -, -, -, e0, e1, -⟩ := idx_facts t
  show V c main_v24 (((cfg0.win 2).blk t).view.emb (ix2 p 0)) = V c main_v24 (ix2 r 0)
  refine congrArg (V c main_v24) (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- The first weight matrix is read whole at every point. -/
theorem blk3_apply (c : Dev nD) (t : Fin cfg0.N) (k q : Fin 128) :
    (iblk0 V c 3 t : Vec Ideal S128x128 .f32) (ix2 k q) = (V c main_arg1 : S128x128.Idx → EReal) (ix2 k q) := by
  obtain ⟨-, -, -, -, -, -, e0, e1, -⟩ := idx_facts t
  show V c main_arg1 (((cfg0.win 3).blk t).view.emb (ix2 k q)) = V c main_arg1 (ix2 k q)
  refine congrArg (V c main_arg1) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The second weight matrix is read whole at every point. -/
theorem blk4_apply (c : Dev nD) (t : Fin cfg0.N) (k q : Fin 128) :
    (iblk0 V c 4 t : Vec Ideal S128x128 .f32) (ix2 k q) = (V c main_arg2 : S128x128.Idx → EReal) (ix2 k q) := by
  obtain ⟨-, -, -, -, -, -, -, -, e0, e1, -⟩ := idx_facts t
  show V c main_arg2 (((cfg0.win 4).blk t).view.emb (ix2 k q)) = V c main_arg2 (ix2 k q)
  refine congrArg (V c main_arg2) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The bias row is read whole at every point. -/
theorem blk5_apply (c : Dev nD) (t : Fin cfg0.N) (q : Fin 128) :
    (iblk0 V c 5 t : Vec Ideal S1x128 .f32) (ix2 0 q) = (V c main_v23 : S1x128.Idx → EReal) (ix2 0 q) := by
  obtain ⟨-, -, -, -, -, -, -, -, -, -, e0, e1, -⟩ := idx_facts t
  show V c main_v23 (((cfg0.win 5).blk t).view.emb (ix2 0 q)) = V c main_v23 (ix2 0 q)
  refine congrArg (V c main_v23) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Entry (p, q) of the output's tile `t` sits at (5000 t + p, q) of the array. -/
theorem emb6_apply (t : Fin cfg0.N) (p : Fin 5000) (q : Fin 128) (r : Fin 100000) (hr : r.val = t.val * 5000 + p.val) :
    (((cfg0.win 6).blk t).view.emb (ix2 p q) : S100000x128.Idx) = ix2 r q := by
  obtain ⟨-, -, -, -, -, -, -, -, -, -, -, -, e0, e1⟩ := idx_facts t
  refine funext fun a => Fin.ext ?_
  match a with
  | ⟨0, _⟩ => show win0_6.index t (0 : Fin 2) * 5000 + 1 * p.val = r.val; omega
  | ⟨1, _⟩ => show win0_6.index t (1 : Fin 2) * 128 + 1 * q.val = q.val; omega

/-- The grid has 20 points. -/
theorem N0_eq : cfg0.N = 20 := by decide

/-- The tile's entry is the layer's entry once each tile read is the array's entry it was cut from. -/
theorem layer_of_reads (z : EReal) (x0 x1 : Vec Ideal S5000x128 .f32) (x2 : Vec Ideal S5000x1 .f32) (x3 x4 : Vec Ideal S128x128 .f32)
    (x5 : Vec Ideal S1x128 .f32) (X A : S100000x128.Idx → EReal) (DV : S100000x1.Idx → EReal) (Ws Wn : S128x128.Idx → EReal)
    (B : S1x128.Idx → EReal) (p : Fin 5000) (q : Fin 128) (r : Fin 100000)
    (h0 : ∀ k, x0 (ix2 p k) = X (ix2 r k)) (h1 : ∀ k, x1 (ix2 p k) = A (ix2 r k)) (h2 : x2 (ix2 p 0) = DV (ix2 r 0))
    (h3 : ∀ k, x3 (ix2 k q) = Ws (ix2 k q)) (h4 : ∀ k, x4 (ix2 k q) = Wn (ix2 k q)) (h5 : x5 (ix2 0 q) = B (ix2 0 q)) :
    max (((∑ k : Fin 128, x0 (ix2 p k) * x3 (ix2 k q)) + ∑ k : Fin 128, (x1 (ix2 p k) * x2 (ix2 p 0)) * x4 (ix2 k q)) + x5 (ix2 0 q)) z
      = Cert.Spec.layer z (fun r k => X (ix2 r k)) (fun r k => A (ix2 r k)) (fun r => DV (ix2 r 0)) (fun k d => Ws (ix2 k d))
          (fun k d => Wn (ix2 k d)) (fun d => B (ix2 0 d)) r q := by
  unfold Cert.Spec.layer
  have s1 : ∑ k : Fin 128, x0 (ix2 p k) * x3 (ix2 k q) = ∑ k : Fin 128, X (ix2 r k) * Ws (ix2 k q) :=
    Finset.sum_congr rfl fun k _ => by rw [h0 k, h3 k]
  have s2 : ∑ k : Fin 128, (x1 (ix2 p k) * x2 (ix2 p 0)) * x4 (ix2 k q) = ∑ k : Fin 128, (A (ix2 r k) * DV (ix2 r 0)) * Wn (ix2 k q) :=
    Finset.sum_congr rfl fun k _ => by rw [h1 k, h2, h4 k]
  rw [s1, s2, h5]

/-- What point `t` writes back is tile `t` of the table. -/
theorem flushed0_eq (c : Dev nD) (t : Fin cfg0.N) :
    (dat0 V c).flushed 6 t = ((cfg0.win 6).blk t).view.read (Elt Ideal) (tab0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have hp : p.val < 5000 := p.isLt
  have ht : t.val < 20 := lt_of_lt_of_eq t.isLt N0_eq
  obtain ⟨r, hr⟩ : ∃ r : Fin 100000, r.val = t.val * 5000 + p.val := ⟨⟨t.val * 5000 + p.val, by omega⟩, rfl⟩
  show k0_pay1 (F := Ideal) (iblk0 V c 0 t) (iblk0 V c 1 t) (iblk0 V c 2 t) (iblk0 V c 3 t) (iblk0 V c 4 t) (iblk0 V c 5 t) (ix2 p q)
    = tab0 V c (((cfg0.win 6).blk t).view.emb (ix2 p q))
  refine ((pay_apply _ _ _ _ _ _ p q).trans ?_).trans (congrArg (tab0 V c) (emb6_apply t p q r hr).symm)
  exact layer_of_reads (Ideal.ofBits .f32 0x00000000#32) (iblk0 V c 0 t) (iblk0 V c 1 t) (iblk0 V c 2 t) (iblk0 V c 3 t) (iblk0 V c 4 t) (iblk0 V c 5 t)
    (V c main_arg0) (V c main_v22) (V c main_v24) (V c main_arg1) (V c main_arg2) (V c main_v23) p q r
    (fun k => blk0_apply V c t p k r hr) (fun k => blk1_apply V c t p k r hr) (blk2_apply V c t p r hr)
    (fun k => blk3_apply V c t k q) (fun k => blk4_apply V c t k q) (blk5_apply V c t q)

/-- An index of the table is in point `t`'s tile iff each coordinate is in the tile's range on its axis. -/
theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- Row `r` of the table is in tile `r / 5000`. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [N0_eq]; omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- When the region ends its output array is the table. -/
theorem final0_arr (c : Dev nD) : (dat0 V c).arrAt 6 cfg0.N = tab0 V c :=
  (dat0 V c).arrAt_eq_of_cover 6 (tab0 V c) (fun t _ => flushed0_eq V c t) cover6

/-- Every entry of the final array is the layer of the arrays the region found. -/
theorem final0 (c : Dev nD) (r : Fin 100000) (d : Fin 128) :
    ((dat0 V c).arrAt 6 cfg0.N : S100000x128.Idx → EReal) (ix2 r d) = h1 V c r d :=
  congrFun (final0_arr V c) (ix2 r d)

end Cert.KernelIdeal.Val

end
-- ==== Proof.KI.Region1Val.lean ====
/-
  Region 1 of the program, the pooling layer: what the accumulation of `Region1.lean` computes. Each case's
  stores, read back, are the kernel's own arithmetic on whole tiles — the partial product of the point's seven
  input tiles added to what the accumulator held (the zero block at the first point of a run) — and the output
  tile stored at the last point of a run is the accumulated sum, reshaped. The three facts at the end are what
  an induction over the points of a run takes.
-/
import proofs.«428029_j66185446031414_3_alg».proof.Proof.KI.Region1
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The found pieces, read -/

/-- A first point of a run leaves in the accumulator the point's partial product added to the zero block. -/
theorem sout1_A_0_eq (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) :
    sout1_A_0 c i arg2 harg2 arg3 harg3 arg4 harg4 arg5 harg5 arg6 harg6 arg7 harg7 arg8 harg8 arg9 harg9 arg10 harg10 hc0 hc1 x0 x1 x2 x3 x4 x5 x6 = k1_pay1 (k1_pay4 x0 x1 x2 x4 x5 x6 x3) (k1_pay3 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4 x5 x6)]
  unfold kernelRun1_A
  dsimp only
  sl_unfold_words
  rw [View.canon_cons_unit_zero (S := S128x128) hz2]
  simp only [View.readAt_eq_ld, harg2.read_unread, harg3.read_unread, harg4.read_unread, harg5.read_unread, harg6.read_unread, harg7.read_unread, harg8.read_unread, View.ld_unit_zero (S := S2000x128) hz2, View.ld_unit_zero (S := S2000x1) hz2, View.ld_unit_zero (S := S128x128) hz2, View.ld_unit_zero (S := S1x128) hz2, View.readCov_unit_zero (S := S128x128) _ hz2]

/-- A middle point of a run leaves in the accumulator the point's partial product added to what it held. -/
theorem sout1_B_0_eq (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : ¬cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) :
    sout1_B_0 c i arg2 harg2 arg3 harg3 arg4 harg4 arg5 harg5 arg6 harg6 arg7 harg7 arg8 harg8 arg9 harg9 arg10 harg10 hc0 hc1 x0 x1 x2 x3 x4 x5 x6 xs0 = k1_pay1 (k1_pay4 x0 x1 x2 x4 x5 x6 x3) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 x5 x6 xs0)]
  unfold kernelRun1_B
  dsimp only
  sl_unfold_words
  rw [View.canon_unit_zero (S := S128x128) hz2]
  simp only [View.readAt_eq_ld, harg2.read_unread, harg3.read_unread, harg4.read_unread, harg5.read_unread, harg6.read_unread, harg7.read_unread, harg8.read_unread, harg10.read_unread, View.ld_unit_zero (S := S2000x128) hz2, View.ld_unit_zero (S := S2000x1) hz2, View.ld_unit_zero (S := S128x128) hz2, View.ld_unit_zero (S := S1x128) hz2]

/-- So does the last point of a run, -/
theorem sout1_C_0_eq (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) :
    sout1_C_0 c i arg2 harg2 arg3 harg3 arg4 harg4 arg5 harg5 arg6 harg6 arg7 harg7 arg8 harg8 arg9 harg9 arg10 harg10 hc0 hc1 x0 x1 x2 x3 x4 x5 x6 xs0 = k1_pay1 (k1_pay4 x0 x1 x2 x4 x5 x6 x3) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 x5 x6 xs0)]
  unfold kernelRun1_C
  dsimp only
  sl_unfold_words
  rw [View.canon_unit_zero (S := S128x128) hz2]
  simp only [View.readAt_eq_ld, harg2.read_unread, harg3.read_unread, harg4.read_unread, harg5.read_unread, harg6.read_unread, harg7.read_unread, harg8.read_unread, harg10.read_unread, View.ld_unit_zero (S := S2000x128) hz2, View.ld_unit_zero (S := S2000x1) hz2, View.ld_unit_zero (S := S128x128) hz2, View.ld_unit_zero (S := S1x128) hz2]

/-- which also stores the output tile from that sum. -/
theorem out1_C_7_eq (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128x128 .f32) (harg9 : arg9.IsWhole) (arg10 : Memref sig .tc .vmem S128x128 .f32) (harg10 : arg10.IsWhole) (hc0 : ¬cond1_0 i) (hc1 : cond1_1 i)
    (x0 : Vec F S2000x128 .f32) (x1 : Vec F S2000x128 .f32) (x2 : Vec F S2000x1 .f32) (x3 : Vec F S2000x1 .i32) (x4 : Vec F S128x128 .f32) (x5 : Vec F S128x128 .f32) (x6 : Vec F S1x128 .f32) (xs0 : Vec F S128x128 .f32) :
    out1_C_7 c i arg2 harg2 arg3 harg3 arg4 harg4 arg5 harg5 arg6 harg6 arg7 harg7 arg8 harg8 arg9 harg9 arg10 harg10 hc0 hc1 x0 x1 x2 x3 x4 x5 x6 xs0 = k1_pay2 (k1_pay1 (k1_pay4 x0 x1 x2 x4 x5 x6 x3) xs0) := by
  unfold out1_C_7
  rw [View.read_writes_eq_canon _ _ _ (cover1_C_7 c i arg2 harg2 arg3 harg3 arg4 harg4 arg5 harg5 arg6 harg6 arg7 harg7 arg8 harg8 arg9 harg9 arg10 harg10 hc0 hc1 x0 x1 x2 x3 x4 x5 x6 xs0)]
  unfold kernelRun1_C
  dsimp only
  sl_unfold_words
  rw [View.canon_unit_zero (S := S1x128x128) hz3]
  simp only [View.readAt_eq_ld, harg2.read_unread, harg3.read_unread, harg4.read_unread, harg5.read_unread, harg6.read_unread, harg7.read_unread, harg8.read_unread, harg10.read_unread, View.ld_unit_zero (S := S2000x128) hz2, View.ld_unit_zero (S := S2000x1) hz2, View.ld_unit_zero (S := S128x128) hz2, View.ld_unit_zero (S := S1x128) hz2, View.readCov_unit_zero (S := S128x128) _ hz2]

/-! ## The accumulation, point by point -/

/-- The point's partial product: the kernel's value on the point's input tiles. -/
def part1 (c : Dev nD) (t : Fin cfg1.N) : FVec F S128x128 .f32 :=
  k1_pay4 (iblk1 V c 0 t) (iblk1 V c 1 t) (iblk1 V c 2 t) (iblk1 V c 4 t) (iblk1 V c 5 t) (iblk1 V c 6 t) (iblk1 V c 3 t)

/-- At the first point of a run the accumulator is left at the partial product added to the zero block. -/
theorem scratch_reset (c : Dev nD) (t : Fin cfg1.N) (h : t.val % 25 = 0) :
    (outsAt1 V c t.val t.isLt).2 = k1_pay1 (part1 V c t) (k1_pay3 (F := F)) := by
  have h1 : ¬t.val % 25 = 24 := by omega
  rw [outsAt1_A V c t h h1]; unfold part1; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h) (fun h' => h1 ((hcond1_1 t).mp h')) (iblk1 V c 0 t) (iblk1 V c 1 t) (iblk1 V c 2 t) (iblk1 V c 3 t) (iblk1 V c 4 t) (iblk1 V c 5 t) (iblk1 V c 6 t)

/-- At every other point it is left at the partial product added to what the point before left. -/
theorem scratch_step (c : Dev nD) (t : Fin cfg1.N) (h : ¬t.val % 25 = 0) :
    (outsAt1 V c t.val t.isLt).2 = k1_pay1 (part1 V c t) (outsAt1 V c (t.val - 1) (Nat.lt_of_le_of_lt (Nat.sub_le _ _) t.isLt)).2 := by
  by_cases h1 : t.val % 25 = 24
  · rw [outsAt1_C V c t h h1]; unfold part1; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h' => h ((hcond1_0 t).mp h')) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2
  · rw [outsAt1_B V c t h h1]; unfold part1; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h' => h ((hcond1_0 t).mp h')) (fun h' => h1 ((hcond1_1 t).mp h')) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

/-- At the last point of a run the output tile is stored from what the accumulator then holds. -/
theorem out_flush (c : Dev nD) (t : Fin cfg1.N) (h : t.val % 25 = 24) :
    (outsAt1 V c t.val t.isLt).1 = k1_pay2 (outsAt1 V c t.val t.isLt).2 := by
  have h0 : ¬t.val % 25 = 0 := by omega
  rw [outsAt1_C V c t h0 h]; dsimp only
  exact (out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2).trans
    (congrArg k1_pay2 (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2).symm)

end Cert.KernelIdeal.Frame

end
-- ==== Proof.SpecPool.lean ====
/-
  The tile-by-tile sum of the weighted rows equals the sum over every row.

  The 100000 rows are 50 tiles of 2000 rows: row `r` is row `n` of tile `t` with `r = 2000 t + n`. Extending
  the weighted row by zero past the table turns a tile's sum into a sum over a range of naturals; sums over
  consecutive ranges concatenate (`∑_{i<a+b} F i = ∑_{i<a} F i + ∑_{j<b} F (a + j)`), so by induction on the number
  of tiles `∑_{t<m} ∑_{j<n} F (n t + j) = ∑_{i<m n} F i`. Only commutativity and associativity of the addition of
  extended reals are used.
-/
import proofs.«428029_j66185446031414_3_alg».proof.Proof.Spec
import Mathlib.Algebra.BigOperators.Intervals
import Mathlib.Algebra.BigOperators.Fin
import Mathlib.Data.EReal.Basic

noncomputable section

namespace Cert.Spec

open Idealize.ShloMosaic

/-- The indicator is one when the id names the graph. -/
theorem oh_eq_one {w : BitVec 32} {g : Fin 128} (h : BitVec.ofNat 32 g.val = w) : oh w g = 1 := by
  unfold oh
  rw [if_pos h]

/-- The indicator is zero when the id does not name the graph. -/
theorem oh_eq_zero {w : BitVec 32} {g : Fin 128} (h : ¬ BitVec.ofNat 32 g.val = w) : oh w g = 0 := by
  unfold oh
  rw [if_neg h]

/-- Weighting by the indicator keeps the value or replaces it by zero. -/
theorem oh_mul (w : BitVec 32) (g : Fin 128) (x : EReal) :
    oh w g * x = if BitVec.ofNat 32 g.val = w then x else 0 := by
  by_cases h : BitVec.ofNat 32 g.val = w
  · rw [oh_eq_one h, if_pos h, one_mul]
  · rw [oh_eq_zero h, if_neg h, zero_mul]

/-- The weighted row `i`, extended by zero past the table. -/
def wrow (H : Fin 100000 → Fin 128 → EReal) (gid : Fin 100000 → BitVec 32) (g d : Fin 128) (i : ℕ) : EReal :=
  if h : i < 100000 then oh (gid ⟨i, h⟩) g * H ⟨i, h⟩ d else 0

/-- A sum over `m` blocks of `n` consecutive naturals is the sum over the first `m n` naturals. -/
theorem sum_blocks (F : ℕ → EReal) (n : ℕ) : ∀ m : ℕ,
    ∑ t ∈ Finset.range m, ∑ j ∈ Finset.range n, F (n * t + j) = ∑ i ∈ Finset.range (m * n), F i
  | 0 => by simp
  | m + 1 => by
    rw [Finset.sum_range_succ, sum_blocks F n m, Nat.succ_mul, Finset.sum_range_add, Nat.mul_comm n m]

/-- A tile's contribution is the sum of its 2000 zero-extended weighted rows. -/
theorem part_eq (H : Fin 100000 → Fin 128 → EReal) (gid : Fin 100000 → BitVec 32) (t : ℕ) (g d : Fin 128) :
    part H gid t g d = ∑ n ∈ Finset.range 2000, wrow H gid g d (2000 * t + n) := by
  rw [← Fin.sum_univ_eq_sum_range (fun n => wrow H gid g d (2000 * t + n)) 2000]
  rfl

/-- The sum over every row is the sum of the first 100000 zero-extended weighted rows. -/
theorem pooled_eq (H : Fin 100000 → Fin 128 → EReal) (gid : Fin 100000 → BitVec 32) (g d : Fin 128) :
    pooled H gid g d = ∑ i ∈ Finset.range 100000, wrow H gid g d i := by
  unfold pooled
  rw [Finset.sum_fin_eq_sum_range]
  rfl

/-- The two halves of 25 tiles together give the sum over every row. -/
theorem pool_eq (H : Fin 100000 → Fin 128 → EReal) (gid : Fin 100000 → BitVec 32) (g d : Fin 128) :
    half H gid 0 g d + half H gid 1 g d = pooled H gid g d := by
  have h50 : ∑ t ∈ Finset.range (25 + 25), ∑ n ∈ Finset.range 2000, wrow H gid g d (2000 * t + n)
      = ∑ i ∈ Finset.range ((25 + 25) * 2000), wrow H gid g d i :=
    sum_blocks (wrow H gid g d) 2000 (25 + 25)
  rw [Finset.sum_range_add] at h50
  rw [pooled_eq, show (100000 : ℕ) = (25 + 25) * 2000 from by norm_num, ← h50]
  unfold half
  simp only [part_eq, Nat.mul_zero, Nat.zero_add, Nat.mul_one]

end Cert.Spec

end
-- ==== Proof.KI.Value1Pay.lean ====
/-
  The pooled layer's tiles at one entry. On a tile of 2000 rows the kernel forms the second layer
  `h = max ((x · Ws + (a ⊙ dv) · Wn) + b) z` exactly as on the first layer's tiles (two matrix products over
  the 128 features, each accumulated from zero; the neighbour sum scaled row by row by the inverse degree; the
  bias row repeated down the tile; the maximum against the constant `z`), then the 0/1 matrix `E` whose entry
  (n, g) says whether row n's graph id is `g` (the column counter along the second axis compared with the id
  column repeated across the 128 columns, the bit widened to a word and converted), and the transposed product
  `Eᵀ · h` accumulated from zero: entry (g, d) is the sum over the 2000 rows n of `E n g * h n d`. Over the
  extended reals the format changes are the identity, a product accumulated from zero is the plain sum over
  the contracted index, and the converted bit is the extended real 1 or 0. The other three tiles the kernel
  stores are a sum of two tiles entry by entry, the zero tile, and a tile given a leading unit axis.
-/
import proofs.«428029_j66185446031414_3_alg».proof.Proof.Gen.KernelIdeal.Skeleton
import proofs.«428029_j66185446031414_3_alg».proof.Proof.Spec
import proofs.«428029_j66185446031414_3_alg».proof.Proof.SpecPool
import proofs.«428029_j66185446031414_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The layer's products: the left operand is read at (row, k), the right at (k, column) -/

theorem lhs_dot1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a [2000,128] by a [128,128] matrix accumulated from the zero tile, at entry (n, d): the sum
    over the contracted index `k` of left (n, k) times right (k, d). -/
theorem mm1_apply (L : FVec Ideal S2000x128 .bf16) (R : FVec Ideal S128x128 .bf16) (n : Fin 2000) (d : Fin 128) :
    matmul dot_S2000x128_S128x128_S2000x128_1_0_0_1_n_n none L R (constant (F := Ideal) S2000x128 .f32 0x00000000#32) (ix2 n d)
      = ∑ k : Fin 128, L (ix2 n k) * R (ix2 k d) := by
  refine (Ideal.matmul_constant_zero_apply dot_S2000x128_S128x128_S2000x128_1_0_0_1_n_n none L R (ix2 n d)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 n d) ((contrEquiv1 dot_S2000x128_S128x128_S2000x128_1_0_0_1_n_n 128 rfl rfl).symm k) = ix2 n k := funext fun a => Fin.ext (by
    match a with
    | ⟨0, _⟩ => exact lhs_dot1_0 _ _
    | ⟨1, _⟩ => exact (lhs_dot1_1 _ _).trans hk)
  have er : dot_S2000x128_S128x128_S2000x128_1_0_0_1_n_n.rhsIdx (ix2 n d) ((contrEquiv1 dot_S2000x128_S128x128_S2000x128_1_0_0_1_n_n 128 rfl rfl).symm k) = ix2 k d := funext fun a => Fin.ext (by
    match a with
    | ⟨0, _⟩ => exact (rhs_dot1_0 _ _).trans hk
    | ⟨1, _⟩ => exact rhs_dot1_1 _ _)
  rw [el, er]

/-! ## The pooling product: both operands are contracted along their rows, the left read at (n, g), the right at (n, d) -/

theorem lhs_dot2_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q
theorem lhs_dot2_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
theorem rhs_dot2_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q
theorem rhs_dot2_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The transposed product of two [2000,128] matrices accumulated from the zero tile, at entry (g, d): the sum
    over the 2000 rows `n` of left (n, g) times right (n, d). -/
theorem mm2_apply (prec : Option ContractPrecision) (L R : FVec Ideal S2000x128 .f32) (g d : Fin 128) :
    matmul dot_S2000x128_S2000x128_S128x128_0_0_1_1_n_n prec L R (constant (F := Ideal) S128x128 .f32 0x00000000#32) (ix2 g d)
      = ∑ n : Fin 2000, L (ix2 n g) * R (ix2 n d) := by
  refine (Ideal.matmul_constant_zero_apply dot_S2000x128_S2000x128_S128x128_0_0_1_1_n_n prec L R (ix2 g d)).trans ?_
  rw [← Equiv.sum_comp (contrEquiv1 dot_S2000x128_S2000x128_S128x128_0_0_1_1_n_n 2000 rfl rfl).symm]
  refine Finset.sum_congr rfl fun n _ => ?_
  have hn := contrEquiv1_symm_val dot_S2000x128_S2000x128_S128x128_0_0_1_1_n_n 2000 rfl rfl n
  have el : dot_S2000x128_S2000x128_S128x128_0_0_1_1_n_n.lhsIdx (ix2 g d) ((contrEquiv1 dot_S2000x128_S2000x128_S128x128_0_0_1_1_n_n 2000 rfl rfl).symm n) = ix2 n g := funext fun a => Fin.ext (by
    match a with
    | ⟨0, _⟩ => exact (lhs_dot2_0 _ _).trans hn
    | ⟨1, _⟩ => exact lhs_dot2_1 _ _)
  have er : dot_S2000x128_S2000x128_S128x128_0_0_1_1_n_n.rhsIdx (ix2 g d) ((contrEquiv1 dot_S2000x128_S2000x128_S128x128_0_0_1_1_n_n 2000 rfl rfl).symm n) = ix2 n d := funext fun a => Fin.ext (by
    match a with
    | ⟨0, _⟩ => exact (rhs_dot2_0 _ _).trans hn
    | ⟨1, _⟩ => exact rhs_dot2_1 _ _)
  rw [el, er]

/-! ## The indicator -/

/-- The bit "the counter `g` equals the id `w`", widened to a word and converted, is the indicator of the spec:
    the extended real 1 when the id names the graph, 0 when it does not. -/
theorem ind_word (w : BitVec 32) (g : Fin 128) :
    (FloatOps.sitofp .f32 ((IntOp.cmpi .eq (BitVec.ofNat 32 g.val) w).setWidth 32) : Ideal .f32) = Cert.Spec.oh w g := by
  show (((((IntOp.cmpi .eq (BitVec.ofNat 32 g.val) w).setWidth 32).toInt : ℤ) : ℝ) : EReal) = Cert.Spec.oh w g
  by_cases h : BitVec.ofNat 32 g.val = w
  · have hb : IntOp.cmpi .eq (BitVec.ofNat 32 g.val) w = 1#1 := by
      simp only [IntOp.cmpi, h, beq_self_eq_true, BitVec.ofBool_true]
      rfl
    rw [Cert.Spec.oh_eq_one h, hb, show ((1#1 : BitVec 1).setWidth 32).toInt = 1 from by decide]
    norm_num
  · have hb : IntOp.cmpi .eq (BitVec.ofNat 32 g.val) w = 0#1 := by
      simp only [IntOp.cmpi, beq_eq_false_iff_ne.mpr h, BitVec.ofBool_false]
      rfl
    rw [Cert.Spec.oh_eq_zero h, hb, show ((0#1 : BitVec 1).setWidth 32).toInt = 0 from by decide]
    norm_num

/-- Entry (n, g) of the 0/1 matrix the kernel builds from the id column. -/
theorem ind_apply (v26 : Vec Ideal S2000x1 .i32) (n : Fin 2000) (g : Fin 128) :
    (sitofp .f32 (extui 32 (cmpi .eq (iota .tc S2000x128 32 [1] iota_S2000x128_d1_w32)
        (broadcastTo S2000x128 (shapeCast S2000x1 v26 shapeCasts_S2000x1_S2000x1) broadcasts_S2000x1_S2000x128)) natLt_1_32)
      : FVec Ideal S2000x128 .f32) (ix2 n g) = Cert.Spec.oh (v26 (ix2 n 0)) g := by
  have hi : iota .tc S2000x128 32 [1] iota_S2000x128_d1_w32 (ix2 n g) = BitVec.ofNat 32 g.val :=
    iota_single_apply .tc S2000x128 32 1 iota_S2000x128_d1_w32 (ix2 n g)
  have hc : broadcastTo S2000x128 (shapeCast S2000x1 v26 shapeCasts_S2000x1_S2000x1) broadcasts_S2000x1_S2000x128 (ix2 n g)
      = v26 (ix2 n 0) := by
    rw [shapeCast_self]; exact Cert.LibColumn.broadcastTo_a1_ab_apply v26 _ n g
  show (FloatOps.sitofp .f32 ((IntOp.cmpi .eq (iota .tc S2000x128 32 [1] iota_S2000x128_d1_w32 (ix2 n g))
      (broadcastTo S2000x128 (shapeCast S2000x1 v26 shapeCasts_S2000x1_S2000x1) broadcasts_S2000x1_S2000x128 (ix2 n g))).setWidth 32) : Ideal .f32) = _
  rw [hi, hc]
  exact ind_word _ g

/-! ## The layer on one tile -/

/-- row n, column d of the second layer on one 2000-row tile -/
def tileLayer (v3 v6 : Vec Ideal S2000x128 .f32) (v8 : Vec Ideal S2000x1 .f32) (v13 v15 : Vec Ideal S128x128 .f32)
    (v20 : Vec Ideal S1x128 .f32) (n : Fin 2000) (d : Fin 128) : EReal :=
  max (((∑ k : Fin 128, v3 (ix2 n k) * v13 (ix2 k d)) + ∑ k : Fin 128, (v6 (ix2 n k) * v8 (ix2 n 0)) * v15 (ix2 k d)) + v20 (ix2 0 d))
    (Ideal.ofBits .f32 0x00000000#32)

/-- Entry (g, d) of the tile's contribution to the pooled sum: the tile's 2000 rows of the layer, each weighted
    by the indicator that its graph id is `g`. -/
theorem pay4_apply (v3 v6 : Vec Ideal S2000x128 .f32) (v8 : Vec Ideal S2000x1 .f32) (v13 v15 : Vec Ideal S128x128 .f32)
    (v20 : Vec Ideal S1x128 .f32) (v26 : Vec Ideal S2000x1 .i32) (g d : Fin 128) :
    k1_pay4 (F := Ideal) v3 v6 v8 v13 v15 v20 v26 (ix2 g d)
      = ∑ n : Fin 2000, Cert.Spec.oh (v26 (ix2 n 0)) g * tileLayer v3 v6 v8 v13 v15 v20 n d := by
  unfold k1_pay4
  refine (mm2_apply _ _ _ g d).trans (Finset.sum_congr rfl fun n _ => ?_)
  refine congrArg₂ (· * ·) (ind_apply v26 n g) ?_
  have e1 : matmul dot_S2000x128_S128x128_S2000x128_1_0_0_1_n_n none
      (truncf .bf16 (shapeCast S2000x128 v3 shapeCasts_S2000x128_S2000x128) bitsLt_bf16_f32) (truncf .bf16 v13 bitsLt_bf16_f32)
      (constant (F := Ideal) S2000x128 .f32 0x00000000#32) (ix2 n d) = ∑ k : Fin 128, v3 (ix2 n k) * v13 (ix2 k d) := by
    refine (mm1_apply _ _ n d).trans (Finset.sum_congr rfl fun k _ => ?_)
    have hs : shapeCast S2000x128 v3 shapeCasts_S2000x128_S2000x128 (ix2 n k) = v3 (ix2 n k) := by rw [shapeCast_self]
    exact congrArg (· * v13 (ix2 k d)) hs
  have e2 : matmul dot_S2000x128_S128x128_S2000x128_1_0_0_1_n_n none
      (truncf .bf16 (mulf (shapeCast S2000x128 v6 shapeCasts_S2000x128_S2000x128)
        (broadcastTo S2000x128 (shapeCast S2000x1 v8 shapeCasts_S2000x1_S2000x1) broadcasts_S2000x1_S2000x128)) bitsLt_bf16_f32)
      (truncf .bf16 v15 bitsLt_bf16_f32) (constant (F := Ideal) S2000x128 .f32 0x00000000#32) (ix2 n d)
        = ∑ k : Fin 128, (v6 (ix2 n k) * v8 (ix2 n 0)) * v15 (ix2 k d) := by
    refine (mm1_apply _ _ n d).trans (Finset.sum_congr rfl fun k _ => ?_)
    have hs : shapeCast S2000x128 v6 shapeCasts_S2000x128_S2000x128 (ix2 n k) = v6 (ix2 n k) := by rw [shapeCast_self]
    have hc : broadcastTo S2000x128 (shapeCast S2000x1 v8 shapeCasts_S2000x1_S2000x1) broadcasts_S2000x1_S2000x128 (ix2 n k)
        = v8 (ix2 n 0) := by
      rw [shapeCast_self]; exact Cert.LibColumn.broadcastTo_a1_ab_apply v8 _ n k
    exact congrArg (· * v15 (ix2 k d)) (congrArg₂ (· * ·) hs hc)
  have e3 : broadcastTo S2000x128 (shapeCast S1x128 v20 shapeCasts_S1x128_S1x128) broadcasts_S1x128_S2000x128 (ix2 n d)
      = v20 (ix2 0 d) := by
    rw [shapeCast_self]; exact broadcastTo_1b_ab_apply v20 _ n d
  exact congrArg (max · (Ideal.ofBits .f32 0x00000000#32)) (congrArg₂ (· + ·) (congrArg₂ (· + ·) e1 e2) e3)

/-! ## The three small tiles -/

/-- The accumulated tile: the tile read back plus the new contribution, entry by entry. -/
theorem pay1_apply (v33 v34 : Vec Ideal S128x128 .f32) (i : S128x128.Idx) :
    k1_pay1 (F := Ideal) v33 v34 i = v34 i + v33 i := by
  unfold k1_pay1
  rw [shapeCast_self]
  rfl

/-- The tile the accumulation starts from: zero everywhere. -/
theorem pay3_apply (i : S128x128.Idx) : k1_pay3 (F := Ideal) i = 0 := by
  unfold k1_pay3
  rw [shapeCast_self]
  exact Ideal.ofBits_zero_f32

/-- The finished tile given a leading unit axis: entry (0, g, d) is entry (g, d). -/
theorem pay2_apply (v42 : Vec Ideal S128x128 .f32) (g d : Fin 128) :
    k1_pay2 (F := Ideal) v42 (ix3 (0 : Fin 1) g d) = v42 (ix2 g d) := by
  unfold k1_pay2
  refine shapeCast_apply v42 shapeCasts_S128x128_S1x128x128 _ _ ?_
  rw [Shape.rowMajor_val_two, Shape.rowMajor_val_three]
  show g.val * 128 + d.val = (0 * 128 + g.val) * 128 + d.val
  omega

end Cert.KernelIdeal.Val

end
-- ==== Proof.KI.Value1.lean ====
/-
  What the pooling region leaves in its output array. The 100000 rows of the table are 50 tiles of 2000
  rows; tile t = 25 cc + j is the j-th tile of half cc. At tile t the region reads rows 2000 t … 2000 t + 1999
  of the two feature arrays, of the inverse-degree column and of the graph-id column, and the two weight
  matrices and the bias row whole; from them the kernel forms the tile's contribution to every graph g,
  `part t g d = ∑ n, oh (gid (2000 t + n)) g * h (2000 t + n) d` with `h` the second layer. The accumulator is
  reset to zero plus the contribution at the first tile of a half and the contribution is added at each later
  tile, so after tile 25 cc + j it holds `∑ s ≤ j, part (25 cc + s)`; the last tile of a half stores the
  accumulated sum as block cc of the [2,128,128] output array. The two blocks tile that array, so entry
  (cc, g, d) of it ends at `∑ s < 25, part (25 cc + s) g d`, the spec's `half`.
-/
import proofs.«428029_j66185446031414_3_alg».proof.Proof.KI.Region1Val
import proofs.«428029_j66185446031414_3_alg».proof.Proof.KI.Value1Pay
import Idealize.ShloMosaic.Lib.Pipeline.Value

noncomputable section

namespace Cert.KernelIdeal.Val

open Cert.KernelIdeal Cert.KernelIdeal.Gen Cert.KernelIdeal.Frame Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The block index of each window at each of the 50 points: the four row-tiled inputs are at tile `t`, the
    three whole inputs at block 0, the output at block `t / 25`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val / 25 ∧ win1_7.index t (1 : Fin 3) = 0 ∧ win1_7.index t (2 : Fin 3) = 0 :=
  (by decide +kernel : ∀ t : Fin grid1.N, _)

/-! ## The tiles the region reads, as entries of the arrays it finds -/

theorem iblk1_0_apply (c : Dev nD) (t : Fin cfg1.N) (n : Fin 2000) (k : Fin 128) (r : Fin 100000) (hr : r.val = 2000 * t.val + n.val) :
    (iblk1 V c 0 t : Vec Ideal S2000x128 .f32) (ix2 n k) = (V c main_v25 : S100000x128.Idx → EReal) (ix2 r k) := by
  obtain ⟨e0, e1, -⟩ := idx_facts1 t
  unfold iblk1
  rw [View.read_apply]
  show (V c main_v25 : S100000x128.Idx → EReal) _ = (V c main_v25 : S100000x128.Idx → EReal) _
  congr 1
  funext a; apply Fin.ext
  match a with
  | ⟨0, _⟩ => show win1_0.index t (0 : Fin 2) * 2000 + 1 * n.val = r.val; rw [e0, hr]; omega
  | ⟨1, _⟩ => show win1_0.index t (1 : Fin 2) * 128 + 1 * k.val = k.val; rw [e1]; omega

theorem iblk1_1_apply (c : Dev nD) (t : Fin cfg1.N) (n : Fin 2000) (k : Fin 128) (r : Fin 100000) (hr : r.val = 2000 * t.val + n.val) :
    (iblk1 V c 1 t : Vec Ideal S2000x128 .f32) (ix2 n k) = (V c main_v37 : S100000x128.Idx → EReal) (ix2 r k) := by
  obtain ⟨-, -, e0, e1, -⟩ := idx_facts1 t
  unfold iblk1
  rw [View.read_apply]
  show (V c main_v37 : S100000x128.Idx → EReal) _ = (V c main_v37 : S100000x128.Idx → EReal) _
  congr 1
  funext a; apply Fin.ext
  match a with
  | ⟨0, _⟩ => show win1_1.index t (0 : Fin 2) * 2000 + 1 * n.val = r.val; rw [e0, hr]; omega
  | ⟨1, _⟩ => show win1_1.index t (1 : Fin 2) * 128 + 1 * k.val = k.val; rw [e1]; omega

theorem iblk1_2_apply (c : Dev nD) (t : Fin cfg1.N) (n : Fin 2000) (r : Fin 100000) (hr : r.val = 2000 * t.val + n.val) :
    (iblk1 V c 2 t : Vec Ideal S2000x1 .f32) (ix2 n 0) = (V c main_v39 : S100000x1.Idx → EReal) (ix2 r 0) := by
  obtain ⟨-, -, -, -, e0, e1, -⟩ := idx_facts1 t
  unfold iblk1
  rw [View.read_apply]
  show (V c main_v39 : S100000x1.Idx → EReal) _ = (V c main_v39 : S100000x1.Idx → EReal) _
  congr 1
  funext a; apply Fin.ext
  match a with
  | ⟨0, _⟩ => show win1_2.index t (0 : Fin 2) * 2000 + 1 * n.val = r.val; rw [e0, hr]; omega
  | ⟨1, _⟩ => show win1_2.index t (1 : Fin 2) * 1 + 1 * 0 = 0; rw [e1]

theorem iblk1_3_apply (c : Dev nD) (t : Fin cfg1.N) (n : Fin 2000) (r : Fin 100000) (hr : r.val = 2000 * t.val + n.val) :
    (iblk1 V c 3 t : Vec Ideal S2000x1 .i32) (ix2 n 0) = (V c main_v40 : S100000x1.Idx → BitVec 32) (ix2 r 0) := by
  obtain ⟨-, -, -, -, -, -, e0, e1, -⟩ := idx_facts1 t
  unfold iblk1
  rw [View.read_apply]
  show (V c main_v40 : S100000x1.Idx → BitVec 32) _ = (V c main_v40 : S100000x1.Idx → BitVec 32) _
  congr 1
  funext a; apply Fin.ext
  match a with
  | ⟨0, _⟩ => show win1_3.index t (0 : Fin 2) * 2000 + 1 * n.val = r.val; rw [e0, hr]; omega
  | ⟨1, _⟩ => show win1_3.index t (1 : Fin 2) * 1 + 1 * 0 = 0; rw [e1]

theorem iblk1_4_apply (c : Dev nD) (t : Fin cfg1.N) (k d : Fin 128) :
    (iblk1 V c 4 t : Vec Ideal S128x128 .f32) (ix2 k d) = (V c main_arg4 : S128x128.Idx → EReal) (ix2 k d) := by
  obtain ⟨-, -, -, -, -, -, -, -, e0, e1, -⟩ := idx_facts1 t
  unfold iblk1
  rw [View.read_apply]
  show (V c main_arg4 : S128x128.Idx → EReal) _ = (V c main_arg4 : S128x128.Idx → EReal) _
  congr 1
  funext a; apply Fin.ext
  match a with
  | ⟨0, _⟩ => show win1_4.index t (0 : Fin 2) * 128 + 1 * k.val = k.val; rw [e0]; omega
  | ⟨1, _⟩ => show win1_4.index t (1 : Fin 2) * 128 + 1 * d.val = d.val; rw [e1]; omega

theorem iblk1_5_apply (c : Dev nD) (t : Fin cfg1.N) (k d : Fin 128) :
    (iblk1 V c 5 t : Vec Ideal S128x128 .f32) (ix2 k d) = (V c main_arg5 : S128x128.Idx → EReal) (ix2 k d) := by
  obtain ⟨-, -, -, -, -, -, -, -, -, -, e0, e1, -⟩ := idx_facts1 t
  unfold iblk1
  rw [View.read_apply]
  show (V c main_arg5 : S128x128.Idx → EReal) _ = (V c main_arg5 : S128x128.Idx → EReal) _
  congr 1
  funext a; apply Fin.ext
  match a with
  | ⟨0, _⟩ => show win1_5.index t (0 : Fin 2) * 128 + 1 * k.val = k.val; rw [e0]; omega
  | ⟨1, _⟩ => show win1_5.index t (1 : Fin 2) * 128 + 1 * d.val = d.val; rw [e1]; omega

theorem iblk1_6_apply (c : Dev nD) (t : Fin cfg1.N) (d : Fin 128) :
    (iblk1 V c 6 t : Vec Ideal S1x128 .f32) (ix2 0 d) = (V c main_v38 : S1x128.Idx → EReal) (ix2 0 d) := by
  obtain ⟨-, -, -, -, -, -, -, -, -, -, -, -, e0, e1, -⟩ := idx_facts1 t
  unfold iblk1
  rw [View.read_apply]
  show (V c main_v38 : S1x128.Idx → EReal) _ = (V c main_v38 : S1x128.Idx → EReal) _
  congr 1
  funext a; apply Fin.ext
  match a with
  | ⟨0, _⟩ => show win1_6.index t (0 : Fin 2) * 1 + 1 * 0 = 0; rw [e0]
  | ⟨1, _⟩ => show win1_6.index t (1 : Fin 2) * 128 + 1 * d.val = d.val; rw [e1]; omega

/-! ## The layer over the whole table, and the graph ids -/

/-- Row `r`, column `d` of the second layer, from the arrays the region finds. -/
def h2 (c : Dev nD) (r : Fin 100000) (d : Fin 128) : EReal :=
  Cert.Spec.layer (Ideal.ofBits .f32 0x00000000#32)
    (fun r k => (V c main_v25 : S100000x128.Idx → EReal) (ix2 r k))
    (fun r k => (V c main_v37 : S100000x128.Idx → EReal) (ix2 r k))
    (fun r => (V c main_v39 : S100000x1.Idx → EReal) (ix2 r 0))
    (fun k d => (V c main_arg4 : S128x128.Idx → EReal) (ix2 k d))
    (fun k d => (V c main_arg5 : S128x128.Idx → EReal) (ix2 k d))
    (fun d => (V c main_v38 : S1x128.Idx → EReal) (ix2 0 d)) r d

/-- Row `r`'s graph id. -/
def gid (c : Dev nD) (r : Fin 100000) : BitVec 32 := (V c main_v40 : S100000x1.Idx → BitVec 32) (ix2 r 0)

/-- The kernel's value on tile `t`'s input tiles, at entry (g, d): the tile's contribution to graph `g`. -/
theorem pay4_blocks (c : Dev nD) (t : Fin cfg1.N) (g d : Fin 128) :
    k1_pay4 (F := Ideal) (iblk1 V c 0 t) (iblk1 V c 1 t) (iblk1 V c 2 t) (iblk1 V c 4 t) (iblk1 V c 5 t) (iblk1 V c 6 t) (iblk1 V c 3 t) (ix2 g d)
      = Cert.Spec.part (h2 V c) (gid V c) t.val g d := by
  rw [pay4_apply]
  unfold Cert.Spec.part
  refine Finset.sum_congr rfl fun n _ => ?_
  have hN : t.val < 50 := lt_of_lt_of_eq t.isLt (show cfg1.N = 50 from N_1)
  have hlt : 2000 * t.val + n.val < 100000 := by have := n.isLt; omega
  rw [dif_pos hlt]
  refine congrArg₂ (· * ·) (congrArg (Cert.Spec.oh · g) (iblk1_3_apply V c t n ⟨_, hlt⟩ rfl)) ?_
  exact congrArg (max · (Ideal.ofBits .f32 0x00000000#32)) (congrArg₂ (· + ·) (congrArg₂ (· + ·)
    (Finset.sum_congr rfl fun k _ => congrArg₂ (· * ·) (iblk1_0_apply V c t n k ⟨_, hlt⟩ rfl) (iblk1_4_apply V c t k d))
    (Finset.sum_congr rfl fun k _ => congrArg₂ (· * ·) (congrArg₂ (· * ·) (iblk1_1_apply V c t n k ⟨_, hlt⟩ rfl) (iblk1_2_apply V c t n ⟨_, hlt⟩ rfl)) (iblk1_5_apply V c t k d)))
    (iblk1_6_apply V c t d))

/-- Tile `t`'s partial product, at entry (g, d), is that contribution. -/
theorem part1_apply (c : Dev nD) (t : Fin cfg1.N) (g d : Fin 128) :
    (part1 V c t : FVec Ideal S128x128 .f32) (ix2 g d) = Cert.Spec.part (h2 V c) (gid V c) t.val g d :=
  pay4_blocks V c t g d

/-! ## The accumulator after each tile -/

/-- The accumulation's value at a point does not depend on how the point is named. -/
theorem outsAt1_congr (c : Dev nD) (u n : ℕ) (hu : u < cfg1.N) (hn : n < cfg1.N) (e : u = n) :
    outsAt1 V c u hu = outsAt1 V c n hn := by
  subst e; rfl

/-- After tile `j` of half `q` the accumulator holds, at (g, d), the sum of the contributions of tiles
    `25 q … 25 q + j`. -/
theorem scratch_run (c : Dev nD) (q : ℕ) (g d : Fin 128) : ∀ (j : ℕ) (_ : j < 25) (h : 25 * q + j < cfg1.N),
    ((outsAt1 V c (25 * q + j) h).2 : Vec Ideal S128x128 .f32) (ix2 g d)
      = ∑ s ∈ Finset.range (j + 1), Cert.Spec.part (h2 V c) (gid V c) (25 * q + s) g d
  | 0, _, h => by
    have e := congrFun (scratch_reset V c ⟨25 * q + 0, h⟩ (by show (25 * q + 0) % 25 = 0; omega)) (ix2 g d)
    refine e.trans ?_
    rw [pay1_apply, pay3_apply, zero_add, Finset.sum_range_one]
    exact pay4_blocks V c ⟨25 * q + 0, h⟩ g d
  | j + 1, hj, h => by
    have e := congrFun (scratch_step V c ⟨25 * q + (j + 1), h⟩ (by show ¬(25 * q + (j + 1)) % 25 = 0; omega)) (ix2 g d)
    refine e.trans ?_
    rw [pay1_apply, Finset.sum_range_succ _ (j + 1)]
    refine congrArg₂ (· + ·) ?_ (pay4_blocks V c ⟨25 * q + (j + 1), h⟩ g d)
    have ih := scratch_run c q g d j (Nat.lt_of_succ_lt hj) (Nat.lt_of_succ_lt h)
    rw [← ih]
    exact congrFun (congrArg Prod.snd (outsAt1_congr V c _ _ _ _ (by show 25 * q + (j + 1) - 1 = 25 * q + j; omega))) (ix2 g d)

/-! ## The output array -/

/-- What the output array ends holding: entry (cc, g, d) is half `cc`'s sum for graph `g`, column `d`. -/
def pooledArr (c : Dev nD) : S2x128x128.Idx → EReal :=
  fun i => Cert.Spec.half (h2 V c) (gid V c) (i 0).val (i 1) (i 2)

/-- The last tile of a half stores the accumulated sum: block `cc` of the output array. -/
theorem flushed1_7_eq (c : Dev nD) (t : Fin cfg1.N) (hf : (cfg1.win 7).flush t = true) :
    (dat1 V c).flushed 7 t = ((cfg1.win 7).blk t).view.read (Elt Ideal) (pooledArr V c) := by
  have h24 : t.val % 25 = 24 := (flush1_7 t).mp hf
  have hN : t.val < 50 := lt_of_lt_of_eq t.isLt (show cfg1.N = 50 from N_1)
  obtain ⟨-, -, -, -, -, -, -, -, -, -, -, -, -, -, e0, e1, e2⟩ := idx_facts1 t
  show (cfg1.win 7).cut (grid1.coords t) ((dat1 V c).after 7 t) = _
  rw [after1_7, out_flush V c t h24]
  funext j
  obtain ⟨u, g, d, rfl⟩ : ∃ (u : Fin 1) (g d : Fin 128), j = ix3 u g d := ⟨j 0, j 1, j 2, eq_ix3 j⟩
  obtain rfl : u = 0 := Subsingleton.elim _ _
  rw [View.read_apply]
  show k1_pay2 (F := Ideal) (outsAt1 V c t.val t.isLt).2 (ix3 (0 : Fin 1) g d) = pooledArr V c (((cfg1.win 7).blk t).view.emb (ix3 (0 : Fin 1) g d))
  have hemb : ((cfg1.win 7).blk t).view.emb (ix3 (0 : Fin 1) g d) = (ix3 (⟨t.val / 25, by omega⟩ : Fin 2) g d : S2x128x128.Idx) := by
    funext a; apply Fin.ext
    match a with
    | ⟨0, _⟩ => show win1_7.index t (0 : Fin 3) * 1 + 1 * 0 = t.val / 25; rw [e0]; omega
    | ⟨1, _⟩ => show win1_7.index t (1 : Fin 3) * 128 + 1 * g.val = g.val; rw [e1]; omega
    | ⟨2, _⟩ => show win1_7.index t (2 : Fin 3) * 128 + 1 * d.val = d.val; rw [e2]; omega
  rw [hemb, pay2_apply]
  have hq : t.val = 25 * (t.val / 25) + 24 := by omega
  have hb : 25 * (t.val / 25) + 24 < cfg1.N := lt_of_eq_of_lt hq.symm t.isLt
  refine (congrFun (congrArg Prod.snd (outsAt1_congr V c _ _ t.isLt hb hq)) (ix2 g d)).trans ?_
  exact scratch_run V c (t.val / 25) g d 24 (by omega) hb

/-- An index of the output array is in point `t`'s block iff each coordinate is in the block's range on its axis. -/
theorem mem_blk1_7 (t : Fin cfg1.N) (i : S2x128x128.Idx) :
    i ∈ ((cfg1.win 7).blk t).view.set ↔ ∀ a : Fin 3, win1_7.index t a * S1x128x128.size a ≤ (i a).val ∧ (i a).val < win1_7.index t a * S1x128x128.size a + S1x128x128.size a := by
  show i ∈ ((View.whole main_v41).slice (win1_7.rect t)).set ↔ _
  rw [View.set_slice_whole, Rect.mem_set_unit]
  exact Iff.rfl

/-- Every entry of the output array is in the block of the last tile of its half. -/
theorem cover1_7 (i : S2x128x128.Idx) :
    ∃ t : Fin cfg1.N, (cfg1.win 7).flush t = true ∧ i ∈ ((cfg1.win 7).blk t).view.set := by
  have hi0 : (i 0).val < 2 := (i 0).isLt
  have hi1 : (i 1).val < 128 := (i 1).isLt
  have hi2 : (i 2).val < 128 := (i 2).isLt
  have hN : cfg1.N = 50 := N_1
  refine ⟨⟨25 * (i 0).val + 24, by omega⟩, (flush1_7 _).mpr (by show (25 * (i 0).val + 24) % 25 = 24; omega), ?_⟩
  obtain ⟨-, -, -, -, -, -, -, -, -, -, -, -, -, -, e0, e1, e2⟩ := idx_facts1 ⟨25 * (i 0).val + 24, by omega⟩
  rw [mem_blk1_7]
  intro a
  match a with
  | ⟨0, _⟩ => show win1_7.index _ (0 : Fin 3) * 1 ≤ (i 0).val ∧ (i 0).val < win1_7.index _ (0 : Fin 3) * 1 + 1; rw [e0]; show (25 * (i 0).val + 24) / 25 * 1 ≤ (i 0).val ∧ (i 0).val < (25 * (i 0).val + 24) / 25 * 1 + 1; omega
  | ⟨1, _⟩ => show win1_7.index _ (1 : Fin 3) * 128 ≤ (i 1).val ∧ (i 1).val < win1_7.index _ (1 : Fin 3) * 128 + 128; rw [e1]; omega
  | ⟨2, _⟩ => show win1_7.index _ (2 : Fin 3) * 128 ≤ (i 2).val ∧ (i 2).val < win1_7.index _ (2 : Fin 3) * 128 + 128; rw [e2]; omega

/-- The output array after the region: entry (cc, g, d) is half `cc`'s sum, over its 25 tiles, of the rows whose
    graph id is `g`, column `d` of the layer. -/
theorem final1 (c : Dev nD) (cc : Fin 2) (g d : Fin 128) :
    ((dat1 V c).arrAt 7 cfg1.N : S2x128x128.Idx → EReal) (ix3 cc g d) = Cert.Spec.half (h2 V c) (gid V c) cc.val g d :=
  congrFun ((dat1 V c).arrAt_eq_of_cover 7 (pooledArr V c) (fun t hf => flushed1_7_eq V c t hf) cover1_7) (ix3 cc g d)

end Cert.KernelIdeal.Val

end
-- ==== Proof.KI.KernelValue.lean ====
/-
  The idealized program's result as a function of its arguments. At region 0's entry the windows' arrays are the
  argument table, its neighbour sum, the inverse degree as a column, the two weight matrices and the bias as a row;
  so region 0's output, row `r` column `d`, is the first layer `h1K`. At region 1's entry they are that table, ITS
  neighbour sum, the same inverse degree, the graph ids as a column, the second weights and bias; so the returned
  buffer at `(g, d)` is the sum of the two halves of the pooled second layer divided by the graph's node count.
-/
import proofs.«428029_j66185446031414_3_alg».proof.Proof.KI.OutVal
import proofs.«428029_j66185446031414_3_alg».proof.Proof.KI.Value0
import proofs.«428029_j66185446031414_3_alg».proof.Proof.KI.Value1
import proofs.«428029_j66185446031414_3_alg».proof.Proof.LibColumn

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Frame

/-- A layer's entry depends on its operands only through their entries. -/
theorem layer_congr {z : EReal} {x x' a a' : Fin 100000 → Fin 128 → EReal} {dv dv' : Fin 100000 → EReal}
    {Ws Ws' Wn Wn' : Fin 128 → Fin 128 → EReal} {b b' : Fin 128 → EReal}
    (hx : ∀ r k, x r k = x' r k) (ha : ∀ r k, a r k = a' r k) (hd : ∀ r, dv r = dv' r)
    (hs : ∀ k d, Ws k d = Ws' k d) (hn : ∀ k d, Wn k d = Wn' k d) (hb : ∀ d, b d = b' d) (r : Fin 100000) (d : Fin 128) :
    Cert.Spec.layer z x a dv Ws Wn b r d = Cert.Spec.layer z x' a' dv' Ws' Wn' b' r d := by
  obtain rfl : x = x' := funext fun r => funext fun k => hx r k
  obtain rfl : a = a' := funext fun r => funext fun k => ha r k
  obtain rfl : dv = dv' := funext hd
  obtain rfl : Ws = Ws' := funext fun k => funext fun d => hs k d
  obtain rfl : Wn = Wn' := funext fun k => funext fun d => hn k d
  obtain rfl : b = b' := funext hb
  rfl

variable (m : (ℓ : Loc nD τ sig) → Buf (Elt Ideal) ℓ) (c : Dev nD)

/-- The first layer's table from the arguments. -/
def h1K (r : Fin 100000) (d : Fin 128) : EReal :=
  Cert.Spec.layer (Ideal.ofBits .f32 0x00000000#32) (fun r k => ((m ((c : Thread nD τ).loc main_arg0)) : S100000x128.Idx → EReal) (ix2 r k))
    (fun r k => (aggK (F := Ideal) (m ((c : Thread nD τ).loc main_arg0)) (m ((c : Thread nD τ).loc main_arg7)) (m ((c : Thread nD τ).loc main_arg8)) : S100000x128.Idx → EReal) (ix2 r k))
    (fun r => (dinvK (F := Ideal) (m ((c : Thread nD τ).loc main_arg8)) : S100000.Idx → EReal) (ix1 r))
    (fun k d => ((m ((c : Thread nD τ).loc main_arg1)) : S128x128.Idx → EReal) (ix2 k d)) (fun k d => ((m ((c : Thread nD τ).loc main_arg2)) : S128x128.Idx → EReal) (ix2 k d))
    (fun d => ((m ((c : Thread nD τ).loc main_arg3)) : S128.Idx → EReal) (ix1 d)) r d

theorem h1_eq (r : Fin 100000) (d : Fin 128) : h1 (V3 m) c r d = h1K m c r d := by
  unfold h1 h1K
  refine layer_congr (fun r k => ?_) (fun r k => ?_) (fun r => ?_) (fun k d => ?_) (fun k d => ?_) (fun d => ?_) r d
  · exact congrFun (W3_main_arg0 m c) (ix2 r k)
  · exact congrFun (W3_v22 m c) (ix2 r k)
  · refine (congrFun (W3_v24 m c) (ix2 r 0)).trans ?_
    exact Cert.LibColumn.shapeCast_a_a1_apply _ _ r 0
  · exact congrFun (W3_main_arg1 m c) (ix2 k d)
  · exact congrFun (W3_main_arg2 m c) (ix2 k d)
  · refine (congrFun (W3_v23 m c) (ix2 0 d)).trans ?_
    exact shapeCast_a_1a_apply _ _ 0 d

/-- Region 0's output array, as the region-1 entry finds it. -/
abbrev T1 : S100000x128.Idx → EReal := (dat0 (V3 m) c).arrAt 6 cfg0.N

theorem T1_apply (r : Fin 100000) (k : Fin 128) : T1 m c (ix2 r k) = h1K m c r k :=
  (final0 (V3 m) c r k).trans (h1_eq m c r k)

/-- The second layer's table from the arguments. -/
def h2K (r : Fin 100000) (d : Fin 128) : EReal :=
  Cert.Spec.layer (Ideal.ofBits .f32 0x00000000#32) (h1K m c)
    (fun r k => (aggK (F := Ideal) (T1 m c) (m ((c : Thread nD τ).loc main_arg7)) (m ((c : Thread nD τ).loc main_arg8)) : S100000x128.Idx → EReal) (ix2 r k))
    (fun r => (dinvK (F := Ideal) (m ((c : Thread nD τ).loc main_arg8)) : S100000.Idx → EReal) (ix1 r))
    (fun k d => ((m ((c : Thread nD τ).loc main_arg4)) : S128x128.Idx → EReal) (ix2 k d)) (fun k d => ((m ((c : Thread nD τ).loc main_arg5)) : S128x128.Idx → EReal) (ix2 k d))
    (fun d => ((m ((c : Thread nD τ).loc main_arg6)) : S128.Idx → EReal) (ix1 d)) r d

theorem h2_eq (r : Fin 100000) (d : Fin 128) : h2 (V5 m) c r d = h2K m c r d := by
  unfold h2 h2K
  refine layer_congr (fun r k => ?_) (fun r k => ?_) (fun r => ?_) (fun k d => ?_) (fun k d => ?_) (fun d => ?_) r d
  · exact (congrFun (W5_v25 m c) (ix2 r k)).trans (T1_apply m c r k)
  · exact congrFun (W5_v37 m c) (ix2 r k)
  · refine (congrFun (W5_v39 m c) (ix2 r 0)).trans ?_
    exact Cert.LibColumn.shapeCast_a_a1_apply _ _ r 0
  · exact congrFun (W5_main_arg4 m c) (ix2 k d)
  · exact congrFun (W5_main_arg5 m c) (ix2 k d)
  · refine (congrFun (W5_v38 m c) (ix2 0 d)).trans ?_
    exact shapeCast_a_1a_apply _ _ 0 d

theorem gid_eq (r : Fin 100000) : gid (V5 m) c r = ((m ((c : Thread nD τ).loc main_arg9)) : S100000.Idx → BitVec 32) (ix1 r) := by
  unfold gid
  refine (congrFun (W5_v40 m c) (ix2 r 0)).trans ?_
  exact Cert.LibColumn.shapeCast_a_a1_apply _ _ r 0

/-- The returned buffer at `(g, d)`. -/
theorem kernel_value (g d : Fin 128) :
    (W7 m c (Proc.devRef .tc main_v55) : S128x128.Idx → EReal) (ix2 g d)
      = Ideal.div (Cert.Spec.half (h2K m c) (fun r => ((m ((c : Thread nD τ).loc main_arg9)) : S100000.Idx → BitVec 32) (ix1 r)) 0 g d
          + Cert.Spec.half (h2K m c) (fun r => ((m ((c : Thread nD τ).loc main_arg9)) : S100000.Idx → BitVec 32) (ix1 r)) 1 g d)
        ((denK (F := Ideal) (m ((c : Thread nD τ).loc main_arg9)) : S128x128.Idx → EReal) (ix2 g d)) := by
  have hH : h2 (V5 m) c = h2K m c := funext fun r => funext fun d => h2_eq m c r d
  have hG : gid (V5 m) c = fun r => ((m ((c : Thread nD τ).loc main_arg9)) : S100000.Idx → BitVec 32) (ix1 r) := funext fun r => gid_eq m c r
  rw [show (W7 m c (Proc.devRef .tc main_v55) : S128x128.Idx → EReal) = _ from W7_v55 m c, outK_apply,
    final1 (V5 m) c (0 : Fin 2) g d, final1 (V5 m) c (1 : Fin 2) g d, hH, hG]
  rfl

end Cert.KernelIdeal.Val

end
-- ==== Proof.Ref.lean ====
/-
  The reference program's result, read one operation at a time, is the pooled mean of the second layer.

  Each mean-aggregating layer is a row of `x · Ws + (a ⊙ dv) · Wn + b` compared against zero, where `a` is the
  neighbour sum of the layer's input table and `dv` the inverse degree; the two neighbour sums and the inverse
  degree stay as the compositions of gather and scatter operations the program prints. The last scatter adds row
  `r` of the second layer into row `gid r` of a zero table: an update `(r, d')` lands on `(g, d)` exactly when
  `d' = d` and the id of row `r`, read as a signed integer, is `g`; ids that are negative or at least 128 land
  nowhere. So the scattered table at `(g, d)` is the sum over all rows of the 0/1 indicator times the row, and the
  result is that sum divided by the broadcast count.
-/
import proofs.«428029_j66185446031414_3_alg».proof.Proof.RefRun
import proofs.«428029_j66185446031414_3_alg».proof.Proof.RefRead
import proofs.«428029_j66185446031414_3_alg».proof.Proof.Spec
import proofs.«428029_j66185446031414_3_alg».proof.Proof.SpecPool

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- The inverse degree of each row: the printed chain (degree by scatter, compared with zero, one over the larger
    of the degree and one, zero where the degree is zero), read at a row. -/
def dinvR (x8 : (⟨S1600000, .i32⟩ : BufTy).Contents (Elt Ideal)) : Fin 100000 → EReal :=
  fun r => val_main_v10 (F := Ideal) x8 (ix1 r)

/-- The neighbour sum of a table: rows gathered at the source ids (a negative id moved up by the row count),
    then added onto the zero table at the destination ids. -/
def aggR (tbl : (⟨S100000x128, .f32⟩ : BufTy).Contents (Elt Ideal))
    (x7 x8 : (⟨S1600000, .i32⟩ : BufTy).Contents (Elt Ideal)) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32) :
      (⟨S100000x128, .f32⟩ : BufTy).Contents (Elt Ideal))
    (broadcastInDim S1600000x1 ![0] bcast_S1600000_S1600000x1_0 x8 : (⟨S1600000x1, .i32⟩ : BufTy).Contents (Elt Ideal))
    (Host.gather gather_S100000x128_S1600000x1_S1600000x128_1_0_n_n_0_1_1128 tbl
      (broadcastInDim S1600000x1 ![0] bcast_S1600000_S1600000x1_0
        (select
          (cmpi .slt x7 (broadcastInDim S1600000 ![] bcast_S_S1600000 (constantI S_ 32 0#32 : (⟨S_, .i32⟩ : BufTy).Contents (Elt Ideal)) :
            (⟨S1600000, .i32⟩ : BufTy).Contents (Elt Ideal)))
          (addi x7 (broadcastInDim S1600000 ![] bcast_S_S1600000 (constantI S_ 32 100000#32 : (⟨S_, .i32⟩ : BufTy).Contents (Elt Ideal)) :
            (⟨S1600000, .i32⟩ : BufTy).Contents (Elt Ideal)))
          x7 : (⟨S1600000, .i32⟩ : BufTy).Contents (Elt Ideal)) : (⟨S1600000x1, .i32⟩ : BufTy).Contents (Elt Ideal)) :
      (⟨S1600000x128, .f32⟩ : BufTy).Contents (Elt Ideal))

/-- The first layer's neighbour sum is that of the input table. -/
theorem v20_eq (x0 : (⟨S100000x128, .f32⟩ : BufTy).Contents (Elt Ideal))
    (x7 x8 : (⟨S1600000, .i32⟩ : BufTy).Contents (Elt Ideal)) :
    val_main_v20 (F := Ideal) x0 x7 x8 = aggR x0 x7 x8 := rfl

/-- The second layer's neighbour sum is that of the first layer's table. -/
theorem v40_eq (x0 : (⟨S100000x128, .f32⟩ : BufTy).Contents (Elt Ideal))
    (x1 x2 : (⟨S128x128, .f32⟩ : BufTy).Contents (Elt Ideal)) (x3 : (⟨S128, .f32⟩ : BufTy).Contents (Elt Ideal))
    (x7 x8 : (⟨S1600000, .i32⟩ : BufTy).Contents (Elt Ideal)) :
    val_main_v40 (F := Ideal) x0 x1 x2 x3 x7 x8 = aggR (val_main_v30 (F := Ideal) x0 x1 x2 x3 x7 x8) x7 x8 := rfl

/-- The count each graph's sum is divided by, broadcast along the columns. -/
def denR (x9 : (⟨S100000, .i32⟩ : BufTy).Contents (Elt Ideal)) : Fin 128 → Fin 128 → EReal :=
  fun g d => val_main_v61 (F := Ideal) x9 (ix2 g d)

/-- The first layer in the vocabulary of the specification. -/
def h1R (x0 : (⟨S100000x128, .f32⟩ : BufTy).Contents (Elt Ideal))
    (x1 x2 : (⟨S128x128, .f32⟩ : BufTy).Contents (Elt Ideal)) (x3 : (⟨S128, .f32⟩ : BufTy).Contents (Elt Ideal))
    (x7 x8 : (⟨S1600000, .i32⟩ : BufTy).Contents (Elt Ideal)) (r : Fin 100000) (d : Fin 128) : EReal :=
  Cert.Spec.layer (Ideal.ofBits .f32 0x00000000#32) (fun r k => x0 (ix2 r k)) (fun r k => aggR x0 x7 x8 (ix2 r k)) (dinvR x8)
    (fun k d => x1 (ix2 k d)) (fun k d => x2 (ix2 k d)) (fun d => x3 (ix1 d)) r d

/-! ### Index equations: the composed index functions of the stages, at an index given by its coordinates -/

theorem lidx24 (r : Fin 100000) (d k : Fin 128) : lidx_main_v24 (ix2 r d) k = ix2 r k :=
  funext fun a => Fin.ext (by match a with | ⟨0, _⟩ => rfl | ⟨1, _⟩ => rfl)
theorem ridx24 (r : Fin 100000) (d k : Fin 128) : ridx_main_v24 (ix2 r d) k = ix2 k d :=
  funext fun a => Fin.ext (by match a with | ⟨0, _⟩ => rfl | ⟨1, _⟩ => rfl)
theorem lidx25 (r : Fin 100000) (d k : Fin 128) : lidx_main_v25 (ix2 r d) k = ix2 r k :=
  funext fun a => Fin.ext (by match a with | ⟨0, _⟩ => rfl | ⟨1, _⟩ => rfl)
theorem ridx25 (r : Fin 100000) (d k : Fin 128) : ridx_main_v25 (ix2 r d) k = ix2 k d :=
  funext fun a => Fin.ext (by match a with | ⟨0, _⟩ => rfl | ⟨1, _⟩ => rfl)
theorem idx22 (r : Fin 100000) (k : Fin 128) : idx_main_v21 (idx_main_v22 (ix2 r k)) = ix1 r :=
  funext fun a => Fin.ext (by match a with | ⟨0, _⟩ => rfl)
theorem idx28 (r : Fin 100000) (d : Fin 128) : idx_main_v27 (idx_main_v28 (ix2 r d)) = ix1 d :=
  funext fun a => Fin.ext (by match a with | ⟨0, _⟩ => rfl)

/-- The first layer's table, read at row `r` and column `d`. -/
theorem v30_apply (x0 : (⟨S100000x128, .f32⟩ : BufTy).Contents (Elt Ideal))
    (x1 x2 : (⟨S128x128, .f32⟩ : BufTy).Contents (Elt Ideal)) (x3 : (⟨S128, .f32⟩ : BufTy).Contents (Elt Ideal))
    (x7 x8 : (⟨S1600000, .i32⟩ : BufTy).Contents (Elt Ideal)) (r : Fin 100000) (d : Fin 128) :
    val_main_v30 (F := Ideal) x0 x1 x2 x3 x7 x8 (ix2 r d) = h1R x0 x1 x2 x3 x7 x8 r d := by
  unfold h1R Cert.Spec.layer dinvR
  rw [val_main_v30_apply, val_main_v29_apply, val_main_v26_apply, val_main_v24_apply, val_main_v25_apply,
    val_main_v28_apply, val_main_v27_apply, val_main_call1_v0_apply, val_main_call1_cst_apply]
  have e1 : ∀ k : Fin 128, x0 (lidx_main_v24 (ix2 r d) k) * x1 (ridx_main_v24 (ix2 r d) k) = x0 (ix2 r k) * x1 (ix2 k d) :=
    fun k => by rw [lidx24, ridx24]
  have e2 : ∀ k : Fin 128, val_main_v23 (F := Ideal) x0 x7 x8 (lidx_main_v25 (ix2 r d) k) * x2 (ridx_main_v25 (ix2 r d) k)
      = aggR x0 x7 x8 (ix2 r k) * val_main_v10 (F := Ideal) x8 (ix1 r) * x2 (ix2 k d) := fun k => by
    rw [lidx25, ridx25, val_main_v23_apply, val_main_v22_apply, val_main_v21_apply, idx22, v20_eq]
    rfl
  rw [Finset.sum_congr rfl (fun k _ => e1 k), Finset.sum_congr rfl (fun k _ => e2 k), idx28]
  rfl

/-! ### The last scatter: where an update lands -/

/-- A 32-bit word read as a signed integer is `g < 128` exactly when it is the word of `g`. -/
theorem toInt_eq_iff (w : BitVec 32) (g : ℕ) (hg : g < 128) : w.toInt = (g : ℤ) ↔ BitVec.ofNat 32 g = w := by
  constructor
  · intro h
    apply BitVec.eq_of_toNat_eq
    rw [BitVec.toNat_ofNat]
    have hc := BitVec.toInt_eq_toNat_cond w
    have hl := w.isLt
    split_ifs at hc <;> omega
  · rintro rfl
    have hc := BitVec.toInt_eq_toNat_cond (BitVec.ofNat 32 g)
    rw [BitVec.toNat_ofNat] at hc
    split_ifs at hc <;> omega

/-- On the scattered axis the window starts at the row's id, read signed. -/
theorem sc_start0 (idx : IVec S100000x1 32) (r : Fin 100000) (d' : Fin 128) :
    scatter_S128x128_S100000x1_S100000x128_1_0_0_1.start (ix2 r d') idx 0 = (idx (ix2 r 0)).toInt := by
  unfold ScatterDims.start
  rw [dif_pos (show (0 : Fin S128x128.rank) ∈ scatter_S128x128_S100000x1_S100000x128_1_0_0_1.scatterDimsToOperandDims by decide)]
  congr 2
  funext b
  refine Fin.ext ?_
  match b with
  | ⟨0, _⟩ => rfl
  | ⟨1, _⟩ => rfl

/-- On the window axis the start is zero. -/
theorem sc_start1 (idx : IVec S100000x1 32) (r : Fin 100000) (d' : Fin 128) :
    scatter_S128x128_S100000x1_S100000x128_1_0_0_1.start (ix2 r d') idx 1 = 0 := by
  unfold ScatterDims.start
  rw [dif_neg (show ¬(1 : Fin S128x128.rank) ∈ scatter_S128x128_S100000x1_S100000x128_1_0_0_1.scatterDimsToOperandDims by decide)]

/-- The scattered axis is inserted: its window coordinate is zero. -/
theorem sc_window0 (r : Fin 100000) (d' : Fin 128) :
    scatter_S128x128_S100000x1_S100000x128_1_0_0_1.window (ix2 r d') 0 = 0 := by
  unfold ScatterDims.window
  rw [dif_neg (show ¬(0 : Fin S128x128.rank) ∈ scatter_S128x128_S100000x1_S100000x128_1_0_0_1.sKept by decide)]

/-- The window axis carries the update's column. -/
theorem sc_window1 (r : Fin 100000) (d' : Fin 128) :
    scatter_S128x128_S100000x1_S100000x128_1_0_0_1.window (ix2 r d') 1 = d'.val := by
  unfold ScatterDims.window
  rw [dif_pos (show (1 : Fin S128x128.rank) ∈ scatter_S128x128_S100000x1_S100000x128_1_0_0_1.sKept by decide)]
  rfl

/-- Update `(r, d')` lands on `(g, d)` exactly when the columns agree and row `r`'s id is the word of `g`. -/
theorem sc_land (idx : IVec S100000x1 32) (r : Fin 100000) (d' g d : Fin 128) :
    scatter_S128x128_S100000x1_S100000x128_1_0_0_1.resultIdx? (ix2 r d') idx = some (ix2 g d)
      ↔ d' = d ∧ BitVec.ofNat 32 g.val = idx (ix2 r 0) := by
  have hs0 := sc_start0 idx r d'
  have hs1 := sc_start1 idx r d'
  have hw0 := sc_window0 r d'
  have hw1 := sc_window1 r d'
  have hgl := g.isLt
  have hdl := d.isLt
  have hd'l := d'.isLt
  have hT := toInt_eq_iff (idx (ix2 r 0)) g.val hgl
  unfold ScatterDims.resultIdx?
  constructor
  · intro h
    split at h
    · rename_i hc
      have hf := Option.some.inj h
      have c0 : (scatter_S128x128_S100000x1_S100000x128_1_0_0_1.start (ix2 r d') idx 0
          + (scatter_S128x128_S100000x1_S100000x128_1_0_0_1.window (ix2 r d') 0 : ℕ)).toNat = g.val :=
        congrArg Fin.val (congrFun hf 0)
      have c1 : (scatter_S128x128_S100000x1_S100000x128_1_0_0_1.start (ix2 r d') idx 1
          + (scatter_S128x128_S100000x1_S100000x128_1_0_0_1.window (ix2 r d') 1 : ℕ)).toNat = d.val :=
        congrArg Fin.val (congrFun hf 1)
      have b0 : 0 ≤ scatter_S128x128_S100000x1_S100000x128_1_0_0_1.start (ix2 r d') idx 0
          + (scatter_S128x128_S100000x1_S100000x128_1_0_0_1.window (ix2 r d') 0 : ℕ) := (hc 0).1
      rw [hs0, hw0] at c0 b0
      rw [hs1, hw1] at c1
      exact ⟨Fin.ext (by omega), hT.1 (by omega)⟩
    · exact absurd h (by simp)
  · rintro ⟨rfl, hg⟩
    have hgt := hT.2 hg
    have hc : ∀ a, 0 ≤ scatter_S128x128_S100000x1_S100000x128_1_0_0_1.start (ix2 r d') idx a
          + (scatter_S128x128_S100000x1_S100000x128_1_0_0_1.window (ix2 r d') a : ℕ)
        ∧ scatter_S128x128_S100000x1_S100000x128_1_0_0_1.start (ix2 r d') idx a
          + (scatter_S128x128_S100000x1_S100000x128_1_0_0_1.window (ix2 r d') a : ℕ) < S128x128.size a := by
      intro a
      match a with
      | ⟨0, _⟩ =>
        exact (show 0 ≤ scatter_S128x128_S100000x1_S100000x128_1_0_0_1.start (ix2 r d') idx 0
              + (scatter_S128x128_S100000x1_S100000x128_1_0_0_1.window (ix2 r d') 0 : ℕ)
            ∧ scatter_S128x128_S100000x1_S100000x128_1_0_0_1.start (ix2 r d') idx 0
              + (scatter_S128x128_S100000x1_S100000x128_1_0_0_1.window (ix2 r d') 0 : ℕ) < ((128 : ℕ) : ℤ) by
          rw [hs0, hw0]; omega)
      | ⟨1, _⟩ =>
        exact (show 0 ≤ scatter_S128x128_S100000x1_S100000x128_1_0_0_1.start (ix2 r d') idx 1
              + (scatter_S128x128_S100000x1_S100000x128_1_0_0_1.window (ix2 r d') 1 : ℕ)
            ∧ scatter_S128x128_S100000x1_S100000x128_1_0_0_1.start (ix2 r d') idx 1
              + (scatter_S128x128_S100000x1_S100000x128_1_0_0_1.window (ix2 r d') 1 : ℕ) < ((128 : ℕ) : ℤ) by
          rw [hs1, hw1]; omega)
    rw [dif_pos hc]
    congr 1
    funext a
    refine Fin.ext ?_
    match a with
    | ⟨0, _⟩ =>
      exact (show (scatter_S128x128_S100000x1_S100000x128_1_0_0_1.start (ix2 r d') idx 0
          + (scatter_S128x128_S100000x1_S100000x128_1_0_0_1.window (ix2 r d') 0 : ℕ)).toNat = g.val by
        rw [hs0, hw0]; omega)
    | ⟨1, _⟩ =>
      exact (show (scatter_S128x128_S100000x1_S100000x128_1_0_0_1.start (ix2 r d') idx 1
          + (scatter_S128x128_S100000x1_S100000x128_1_0_0_1.window (ix2 r d') 1 : ℕ)).toNat = d'.val by
        rw [hs1, hw1]; omega)

/-! ### The second layer -/

theorem lidx44 (r : Fin 100000) (d k : Fin 128) : lidx_main_v44 (ix2 r d) k = ix2 r k :=
  funext fun a => Fin.ext (by match a with | ⟨0, _⟩ => rfl | ⟨1, _⟩ => rfl)
theorem ridx44 (r : Fin 100000) (d k : Fin 128) : ridx_main_v44 (ix2 r d) k = ix2 k d :=
  funext fun a => Fin.ext (by match a with | ⟨0, _⟩ => rfl | ⟨1, _⟩ => rfl)
theorem lidx45 (r : Fin 100000) (d k : Fin 128) : lidx_main_v45 (ix2 r d) k = ix2 r k :=
  funext fun a => Fin.ext (by match a with | ⟨0, _⟩ => rfl | ⟨1, _⟩ => rfl)
theorem ridx45 (r : Fin 100000) (d k : Fin 128) : ridx_main_v45 (ix2 r d) k = ix2 k d :=
  funext fun a => Fin.ext (by match a with | ⟨0, _⟩ => rfl | ⟨1, _⟩ => rfl)
theorem idx42 (r : Fin 100000) (k : Fin 128) : idx_main_v41 (idx_main_v42 (ix2 r k)) = ix1 r :=
  funext fun a => Fin.ext (by match a with | ⟨0, _⟩ => rfl)
theorem idx48 (r : Fin 100000) (d : Fin 128) : idx_main_v47 (idx_main_v48 (ix2 r d)) = ix1 d :=
  funext fun a => Fin.ext (by match a with | ⟨0, _⟩ => rfl)
theorem idx52 (r : Fin 100000) : idx_main_v52 (ix2 r (0 : Fin 1)) = ix1 r :=
  funext fun a => Fin.ext (by match a with | ⟨0, _⟩ => rfl)

/-- The second layer in the vocabulary of the specification: its input table is the first layer's. -/
def h2R (x0 : (⟨S100000x128, .f32⟩ : BufTy).Contents (Elt Ideal))
    (x1 x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S1600000, .i32⟩ : BufTy).Contents (Elt Ideal)) (r : Fin 100000) (d : Fin 128) : EReal :=
  Cert.Spec.layer (Ideal.ofBits .f32 0x00000000#32) (h1R x0 x1 x2 x3 x7 x8)
    (fun r k => aggR (val_main_v30 (F := Ideal) x0 x1 x2 x3 x7 x8) x7 x8 (ix2 r k)) (dinvR x8)
    (fun k d => x4 (ix2 k d)) (fun k d => x5 (ix2 k d)) (fun d => x6 (ix1 d)) r d

/-- The second layer's table, read at row `r` and column `d`. -/
theorem v50_apply (x0 : (⟨S100000x128, .f32⟩ : BufTy).Contents (Elt Ideal))
    (x1 x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S1600000, .i32⟩ : BufTy).Contents (Elt Ideal)) (r : Fin 100000) (d : Fin 128) :
    val_main_v50 (F := Ideal) x0 x1 x2 x3 x4 x5 x6 x7 x8 (ix2 r d) = h2R x0 x1 x2 x3 x4 x5 x6 x7 x8 r d := by
  unfold h2R Cert.Spec.layer dinvR
  rw [val_main_v50_apply, val_main_v49_apply, val_main_v46_apply, val_main_v44_apply, val_main_v45_apply,
    val_main_v48_apply, val_main_v47_apply, val_main_call2_v0_apply, val_main_call2_cst_apply]
  have e1 : ∀ k : Fin 128, val_main_v30 (F := Ideal) x0 x1 x2 x3 x7 x8 (lidx_main_v44 (ix2 r d) k) * x4 (ridx_main_v44 (ix2 r d) k)
      = h1R x0 x1 x2 x3 x7 x8 r k * x4 (ix2 k d) := fun k => by rw [lidx44, ridx44, v30_apply]
  have e2 : ∀ k : Fin 128, val_main_v43 (F := Ideal) x0 x1 x2 x3 x7 x8 (lidx_main_v45 (ix2 r d) k) * x5 (ridx_main_v45 (ix2 r d) k)
      = aggR (val_main_v30 (F := Ideal) x0 x1 x2 x3 x7 x8) x7 x8 (ix2 r k) * val_main_v10 (F := Ideal) x8 (ix1 r) * x5 (ix2 k d) :=
    fun k => by
      rw [lidx45, ridx45, val_main_v43_apply, val_main_v42_apply, val_main_v41_apply, idx42, v40_eq]
      rfl
  rw [Finset.sum_congr rfl (fun k _ => e1 k), Finset.sum_congr rfl (fun k _ => e2 k), idx48]
  rfl

/-! ### The pooled sum and the result -/

/-- The scattered table at `(g, d)`: the sum over every row of the indicator times the second layer's row. -/
theorem v53_apply (x0 : (⟨S100000x128, .f32⟩ : BufTy).Contents (Elt Ideal))
    (x1 x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S1600000, .i32⟩ : BufTy).Contents (Elt Ideal)) (x9 : (⟨S100000, .i32⟩ : BufTy).Contents (Elt Ideal))
    (g d : Fin 128) :
    val_main_v53 (F := Ideal) x0 x1 x2 x3 x4 x5 x6 x7 x8 x9 (ix2 g d)
      = Cert.Spec.pooled (h2R x0 x1 x2 x3 x4 x5 x6 x7 x8) (fun r => x9 (ix1 r)) g d := by
  unfold val_main_v53 Cert.Spec.pooled Host.scatterAdd
  rw [Ideal.hostScatterAdd_def]
  unfold Ideal.hostScatterAdd
  rw [val_main_v51_apply, val_main_cst_10_apply, Ideal.ofBits_def, Ideal.ofBits_zero_f32, zero_add, Finset.sum_filter, sum_idx2]
  refine Finset.sum_congr rfl fun r _ => ?_
  have hidx : val_main_v52 (F := Ideal) x9 (ix2 r (0 : Fin 1)) = x9 (ix1 r) := by rw [val_main_v52_apply, idx52]
  by_cases hg : BitVec.ofNat 32 g.val = x9 (ix1 r)
  · rw [Cert.Spec.oh_eq_one hg, one_mul, Finset.sum_eq_single d]
    · rw [if_pos ((sc_land (val_main_v52 (F := Ideal) x9) r d g d).2 ⟨rfl, hg.trans hidx.symm⟩), v50_apply]
    · intro b _ hb
      rw [if_neg]
      intro h
      exact hb ((sc_land (val_main_v52 (F := Ideal) x9) r b g d).1 h).1
    · intro h
      exact absurd (Finset.mem_univ d) h
  · rw [Cert.Spec.oh_eq_zero hg, zero_mul]
    refine Finset.sum_eq_zero fun b _ => ?_
    rw [if_neg]
    intro h
    exact hg (((sc_land (val_main_v52 (F := Ideal) x9) r b g d).1 h).2.trans hidx)

/-- The reference's result at graph `g`, column `d`: the pooled sum of the second layer over the broadcast count. -/
theorem ref_value (x0 : (⟨S100000x128, .f32⟩ : BufTy).Contents (Elt Ideal))
    (x1 x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S1600000, .i32⟩ : BufTy).Contents (Elt Ideal)) (x9 : (⟨S100000, .i32⟩ : BufTy).Contents (Elt Ideal))
    (g d : Fin 128) :
    val_main_v62 (F := Ideal) x0 x1 x2 x3 x4 x5 x6 x7 x8 x9 (ix2 g d)
      = Ideal.div (Cert.Spec.pooled (h2R x0 x1 x2 x3 x4 x5 x6 x7 x8) (fun r => x9 (ix1 r)) g d) (denR x9 g d) := by
  rw [val_main_v62_apply, Ideal.hostDivf_def, v53_apply]
  rfl

end Cert.ReferenceIdeal.RefValue

end
-- ==== Proof.Shared.lean ====
/-
  The host operations the two programs share compute the same functions.

  Both programs print their own copies of the shapes, of the dimension numbers of the gathers and scatters and of the
  side conditions; the copies have the same contents, so the compositions built from them are the same functions.
  The kernel's neighbour sum narrows the table before the gather and widens the gathered rows after it; over the
  extended reals both format changes are the identity, so it is the reference's neighbour sum.
-/
import proofs.«428029_j66185446031414_3_alg».proof.Proof.KI.HostVals
import proofs.«428029_j66185446031414_3_alg».proof.Proof.Ref

set_option maxRecDepth 16384

noncomputable section

namespace Cert.Shared

open Idealize.ShloMosaic Idealize.ShloMosaic.ValueIdx

/-! ### The dimension numbers: each program's copy is the other's -/

theorem scatterA : Cert.KernelIdeal.scatter_S100000_S1600000x1_S1600000_n_0_0_1
    = Cert.ReferenceIdeal.scatter_S100000_S1600000x1_S1600000_n_0_0_1 := rfl
theorem scatterB : Cert.KernelIdeal.scatter_S100000x128_S1600000x1_S1600000x128_1_0_0_1
    = Cert.ReferenceIdeal.scatter_S100000x128_S1600000x1_S1600000x128_1_0_0_1 := rfl
theorem gatherA : Cert.KernelIdeal.gather_S100000x128_S1600000x1_S1600000x128_1_0_n_n_0_1_1128
    = Cert.ReferenceIdeal.gather_S100000x128_S1600000x1_S1600000x128_1_0_n_n_0_1_1128 := rfl
theorem scatterC : Cert.KernelIdeal.scatter_S128_S100000x1_S100000_n_0_0_1
    = Cert.ReferenceIdeal.scatter_S128_S100000x1_S100000_n_0_0_1 := rfl

section AnyInstance
variable {F : FTy → Type} [FloatOps F]

/-- The inverse in-degree is the same composition in both programs. -/
theorem dinvK_eq (x8 : (⟨Cert.KernelIdeal.S1600000, .i32⟩ : BufTy).Contents (Elt F)) :
    Cert.KernelIdeal.Val.dinvK (F := F) x8 = Cert.ReferenceIdeal.Read.val_main_v10 (F := F) x8 := rfl

/-- The broadcast count is the same composition in both programs. -/
theorem denK_eq (x9 : (⟨Cert.KernelIdeal.S100000, .i32⟩ : BufTy).Contents (Elt F)) :
    Cert.KernelIdeal.Val.denK (F := F) x9 = Cert.ReferenceIdeal.Read.val_main_v61 (F := F) x9 := rfl

end AnyInstance

/-! ### The three shared functions, in the reference's vocabulary -/

/-- The inverse in-degree of row `r`. -/
theorem dinv_eq (x8 : (⟨Cert.KernelIdeal.S1600000, .i32⟩ : BufTy).Contents (Elt Ideal)) (r : Fin 100000) :
    Cert.KernelIdeal.Val.dinvK (F := Ideal) x8 (ix1 r) = Cert.ReferenceIdeal.RefValue.dinvR x8 r := by
  rw [dinvK_eq]
  rfl

/-- The neighbour sum of a table: narrowing before the gather and widening after it change nothing over the
    extended reals. -/
theorem agg_eq (tbl : (⟨Cert.KernelIdeal.S100000x128, .f32⟩ : BufTy).Contents (Elt Ideal))
    (x7 x8 : (⟨Cert.KernelIdeal.S1600000, .i32⟩ : BufTy).Contents (Elt Ideal)) :
    Cert.KernelIdeal.Val.aggK (F := Ideal) tbl x7 x8 = Cert.ReferenceIdeal.RefValue.aggR tbl x7 x8 := rfl

/-- The broadcast count at graph `g`, column `d`. -/
theorem den_eq (x9 : (⟨Cert.KernelIdeal.S100000, .i32⟩ : BufTy).Contents (Elt Ideal)) (g d : Fin 128) :
    Cert.KernelIdeal.Val.denK (F := Ideal) x9 (ix2 g d) = Cert.ReferenceIdeal.RefValue.denR x9 g d := by
  rw [denK_eq]
  rfl

end Cert.Shared

end
-- ==== Proof.Bridge.lean ====
/-
  The idealized kernel's result is the idealized reference's, as functions of the arguments. Both first layers are
  `Spec.layer` of the same table, neighbour sum and inverse degree, so the two first-layer tables agree entry by
  entry; hence their neighbour sums agree and the second layers agree; the kernel adds two halves of the pooled sum,
  the reference sums all rows at once (`Spec.pool_eq`); and both divide by the same counts.
-/
import proofs.«428029_j66185446031414_3_alg».proof.Proof.KI.KernelValue
import proofs.«428029_j66185446031414_3_alg».proof.Proof.Ref
import proofs.«428029_j66185446031414_3_alg».proof.Proof.Shared
import proofs.«428029_j66185446031414_3_alg».proof.Proof.SpecPool

set_option maxRecDepth 16384

noncomputable section

namespace Cert.Bridge

open Idealize.ShloMosaic Idealize.ShloMosaic.TcCoe Idealize.ShloMosaic.ValueIdx
open Cert.KernelIdeal.Val Cert.KernelIdeal.Frame Cert.ReferenceIdeal.RefValue Cert.ReferenceIdeal.Read

variable (m : (ℓ : Loc Cert.KernelIdeal.nD Cert.KernelIdeal.τ Cert.KernelIdeal.sig) → Buf (Elt Ideal) ℓ) (c : Dev Cert.KernelIdeal.nD)

theorem h1_bridge (r : Fin 100000) (d : Fin 128) :
    h1K m c r d = h1R (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg7)) (m ((c : Thread Cert.KernelIdeal.nD Cert.KernelIdeal.τ).loc Cert.KernelIdeal.main_arg8)) r d := by
  unfold h1K h1R
  refine layer_congr (fun _ _ => rfl) (fun r k => ?_) (fun r => ?_) (fun _ _ => rfl) (fun _ _ => rfl) (fun _ => rfl) r d
  · exact congrFun (Cert.Shared.agg_eq (m ((c : Thread Cert.KernelIdeal.nD Cert.KernelIdeal.τ).loc Cert.KernelIdeal.main_arg0)) (m ((c : Thread Cert.KernelIdeal.nD Cert.KernelIdeal.τ).loc Cert.KernelIdeal.main_arg7)) (m ((c : Thread Cert.KernelIdeal.nD Cert.KernelIdeal.τ).loc Cert.KernelIdeal.main_arg8))) (ix2 r k)
  · exact Cert.Shared.dinv_eq (m ((c : Thread Cert.KernelIdeal.nD Cert.KernelIdeal.τ).loc Cert.KernelIdeal.main_arg8)) r

theorem T1_bridge : T1 m c = val_main_v30 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg7)) (m ((c : Thread Cert.KernelIdeal.nD Cert.KernelIdeal.τ).loc Cert.KernelIdeal.main_arg8)) := by
  funext i
  obtain ⟨r, k, rfl⟩ : ∃ (r : Fin 100000) (k : Fin 128), i = ix2 r k := ⟨i 0, i 1, eq_ix2 i⟩
  rw [T1_apply, h1_bridge, v30_apply]

theorem h2_bridge (r : Fin 100000) (d : Fin 128) :
    h2K m c r d = h2R (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) r d := by
  unfold h2K h2R
  refine layer_congr (fun r k => h1_bridge m c r k) (fun r k => ?_) (fun r => ?_) (fun _ _ => rfl) (fun _ _ => rfl) (fun _ => rfl) r d
  · rw [T1_bridge]
    exact congrFun (Cert.Shared.agg_eq _ (m ((c : Thread Cert.KernelIdeal.nD Cert.KernelIdeal.τ).loc Cert.KernelIdeal.main_arg7)) (m ((c : Thread Cert.KernelIdeal.nD Cert.KernelIdeal.τ).loc Cert.KernelIdeal.main_arg8))) (ix2 r k)
  · exact Cert.Shared.dinv_eq (m ((c : Thread Cert.KernelIdeal.nD Cert.KernelIdeal.τ).loc Cert.KernelIdeal.main_arg8)) r

/-- The kernel's returned buffer is the reference's result at the same arguments. -/
theorem value_eq :
    (W7 m c (Proc.devRef .tc Cert.KernelIdeal.main_v55) : Cert.KernelIdeal.S128x128.Idx → EReal)
      = val_main_v62 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  funext i
  obtain ⟨g, d, rfl⟩ : ∃ (g d : Fin 128), i = ix2 g d := ⟨i 0, i 1, eq_ix2 i⟩
  rw [kernel_value, ref_value, Cert.Spec.pool_eq, Cert.Shared.den_eq]
  have hH : h2K m c = h2R (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := funext fun r => funext fun d => h2_bridge m c r d
  rw [hH]

end Cert.Bridge

end
-- ==== Proof.lean ====
/-
  The certificate. Both kernel programs — the word-level one and its idealization, which differ only in the float
  instance they are read at — run as seven segments (three stretches of host operations, the first dense layer's
  region, a stretch, the second layer fused with the pooling, a last stretch); every execution terminates and leaves
  the arguments as launched. The reference runs as one line of host operations. At the ideal instance both end with
  the pooled mean of the second layer: the kernel forms each graph's sum as two halves of 25 tiles of 2000 rows, each
  row weighted by the 0/1 indicator of its graph id, the reference as one sum over the rows with that id; the sums
  agree because the indicator is 0 or 1 and addition of extended reals is commutative and associative. The ideal
  pass rewrote nothing, so the idealization is the program's own text.
-/
import proofs.«428029_j66185446031414_3_alg».proof.Defs
import proofs.«428029_j66185446031414_3_alg».proof.Proof.Gen.Kernel
import proofs.«428029_j66185446031414_3_alg».proof.Proof.Gen.KernelIdeal
import proofs.«428029_j66185446031414_3_alg».proof.Proof.Gen.ReferenceIdeal
import proofs.«428029_j66185446031414_3_alg».proof.Proof.Gen.Pre_finite_inputs
import proofs.«428029_j66185446031414_3_alg».proof.Proof.K.Args
import proofs.«428029_j66185446031414_3_alg».proof.Proof.KI.Args
import proofs.«428029_j66185446031414_3_alg».proof.Proof.RefRun
import proofs.«428029_j66185446031414_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the same result: the kernel's returned buffer, read off its last segment
    boundary, is the reference's composed term at the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Frame.W7 m c (Proc.devRef .tc Cert.KernelIdeal.main_v55), ?_, ?_⟩
  · refine (θ_run Cert.KernelIdeal.defs _ _).mono (fun r h c => ?_) (Cert.KernelIdeal.Frame.run_all m ρ)
    exact ⟨h c _ (Cert.KernelIdeal.Frame.mem_uc Cert.KernelIdeal.main_v55 (by decide)),
      (h c _ (Cert.KernelIdeal.Frame.mem_uc Cert.KernelIdeal.main_arg0 (by decide))).trans (Cert.KernelIdeal.Frame.W7_main_arg0 m c),
      (h c _ (Cert.KernelIdeal.Frame.mem_uc Cert.KernelIdeal.main_arg1 (by decide))).trans (Cert.KernelIdeal.Frame.W7_main_arg1 m c),
      (h c _ (Cert.KernelIdeal.Frame.mem_uc Cert.KernelIdeal.main_arg2 (by decide))).trans (Cert.KernelIdeal.Frame.W7_main_arg2 m c),
      (h c _ (Cert.KernelIdeal.Frame.mem_uc Cert.KernelIdeal.main_arg3 (by decide))).trans (Cert.KernelIdeal.Frame.W7_main_arg3 m c),
      (h c _ (Cert.KernelIdeal.Frame.mem_uc Cert.KernelIdeal.main_arg4 (by decide))).trans (Cert.KernelIdeal.Frame.W7_main_arg4 m c),
      (h c _ (Cert.KernelIdeal.Frame.mem_uc Cert.KernelIdeal.main_arg5 (by decide))).trans (Cert.KernelIdeal.Frame.W7_main_arg5 m c),
      (h c _ (Cert.KernelIdeal.Frame.mem_uc Cert.KernelIdeal.main_arg6 (by decide))).trans (Cert.KernelIdeal.Frame.W7_main_arg6 m c),
      (h c _ (Cert.KernelIdeal.Frame.mem_uc Cert.KernelIdeal.main_arg7 (by decide))).trans (Cert.KernelIdeal.Frame.W7_main_arg7 m c),
      (h c _ (Cert.KernelIdeal.Frame.mem_uc Cert.KernelIdeal.main_arg8 (by decide))).trans (Cert.KernelIdeal.Frame.W7_main_arg8 m c),
      (h c _ (Cert.KernelIdeal.Frame.mem_uc Cert.KernelIdeal.main_arg9 (by decide))).trans (Cert.KernelIdeal.Frame.W7_main_arg9 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (Cert.Bridge.value_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
